-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v27_0)) (v1 : (c : Dev Cert.KernelIdeal.nD) → Buf (Elt Ideal) ((c.tc : Thread Cert.KernelIdeal.nD Cert.KernelIdeal.τ).loc Cert.KernelIdeal.main_v27_1)) (v2 : (c : Dev Cert.KernelIdeal.nD) → Buf (Elt Ideal) ((c.tc : Thread Cert.KernelIdeal.nD Cert.KernelIdeal.τ).loc Cert.KernelIdeal.main_v27_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_v27_1) = v1 c
          ∧ r.2.mem ((c.tc : Thread Cert.KernelIdeal.nD Cert.KernelIdeal.τ).loc Cert.KernelIdeal.main_v27_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S256x128 : Shape := ⟨2, ![256, 128]⟩
abbrev S256x64 : Shape := ⟨2, ![256, 64]⟩
abbrev S256 : Shape := ⟨1, ![256]⟩
abbrev S64x128 : Shape := ⟨2, ![64, 128]⟩
abbrev S128x32 : Shape := ⟨2, ![128, 32]⟩
abbrev S32 : Shape := ⟨1, ![32]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S256x128 : S_.BroadcastsInDim S256x128 (![] : Fin 0 → Fin S256x128.rank)
  reducesTo_S256x128_S_d0_1 : S256x128.ReducesTo [0, 1] S_
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_
  bcast_S_S64x128 : S_.BroadcastsInDim S64x128 (![] : Fin 0 → Fin S64x128.rank)
  reducesTo_S64x128_S_d0_1 : S64x128.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part4 {F : FTy → Type} [FloatOps F] (main_arg16 : FVec F S128x32 .f32) (main_arg17 : FVec F S32 .f32) (main_v63 : IVec S_ 1) (main_v67 : IVec S_ 1) : IVec S_ 1 :=
  let main_v68 : IVec S_ 1 := andi main_v63 main_v67
  let main_v69 : FVec F S128x32 .f32 := Host.absf main_arg16
  let main_cst_26 : FVec F S_ .f32 := constant S_ .f32 0x7F800000#32
  let main_v70 : FVec F S128x32 .f32 := broadcastInDim S128x32 ![] bcast_S_S128x32 main_cst_26
  let main_v71 : IVec S128x32 1 := cmpf .olt main_v69 main_v70
  let main_c_27 : IVec S_ 1 := constantI S_ 1 1#1
  let main_v72 : IVec S_ 1 := (fun x v => Host.reduce IntOp.andi x v reducesTo_S128x32_S_d0_1 h_S_) main_v71 main_c_27
  let main_v73 : IVec S_ 1 := andi main_v68 main_v72
  let main_v74 : FVec F S32 .f32 := Host.absf main_arg17
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  main_v78

def fn_part3 {F : FTy → Type} [FloatOps F] (main_arg13 : FVec F S256 .f32) (main_arg14 : FVec F S64x128 .f32) (main_arg15 : FVec F S128 .f32) (main_arg16 : FVec F S128x32 .f32) (main_arg17 : FVec F S32 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S64x128 .f32 := Host.absf main_arg14
  let main_cst_22 : FVec F S_ .f32 := constant S_ .f32 0x7F800000#32
  let main_v60 : FVec F S64x128 .f32 := broadcastInDim S64x128 ![] bcast_S_S64x128 main_cst_22
  let main_v61 : IVec S64x128 1 := cmpf .olt main_v59 main_v60
  let main_c_23 : IVec S_ 1 := constantI S_ 1 1#1
  let main_v62 : IVec S_ 1 := (fun x v => Host.reduce IntOp.andi x v reducesTo_S64x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_v63 main_v67

def fn_part2 {F : FTy → Type} [FloatOps F] (main_arg9 : FVec F S64 .f32) (main_arg10 : FVec F S256x128 .f32) (main_arg11 : FVec F S256x64 .f32) (main_arg12 : FVec F S256 .f32) (main_arg13 : FVec F S256 .f32) (main_arg14 : FVec F S64x128 .f32) (main_arg15 : FVec F S128 .f32) (main_arg16 : FVec F S128x32 .f32) (main_arg17 : FVec F S32 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S256x128 .f32 := Host.absf main_arg10
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S256x64 .f32 := Host.absf main_arg11
  let main_cst_16 : FVec F S_ .f32 := constant S_ .f32 0x7F800000#32
  let main_v45 : FVec F S256x64 .f32 := broadcastInDim S256x64 ![] bcast_S_S256x64 main_cst_16
  let main_v46 : IVec S256x64 1 := cmpf .olt main_v44 main_v45
  let main_c_17 : IVec S_ 1 := constantI S_ 1 1#1
  let main_v47 : IVec S_ 1 := (fun x v => Host.reduce IntOp.andi x v reducesTo_S256x64_S_d0_1 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg13 main_arg14 main_arg15 main_arg16 main_arg17 main_v48 main_v49 main_v50

def fn_part1 {F : FTy → Type} [FloatOps F] (main_arg6 : FVec F S128x128 .f32) (main_arg7 : FVec F S128 .f32) (main_arg8 : FVec F S128x64 .f32) (main_arg9 : FVec F S64 .f32) (main_arg10 : FVec F S256x128 .f32) (main_arg11 : FVec F S256x64 .f32) (main_arg12 : FVec F S256 .f32) (main_arg13 : FVec F S256 .f32) (main_arg14 : FVec F S64x128 .f32) (main_arg15 : FVec F S128 .f32) (main_arg16 : FVec F S128x32 .f32) (main_arg17 : FVec F S32 .f32) (main_v13 : IVec S_ 1) (main_v16 : IVec S50000x64 1) : IVec S_ 1 :=
  let main_c_5 : IVec S_ 1 := constantI S_ 1 1#1
  let main_v17 : IVec S_ 1 := (fun x v => Host.reduce IntOp.andi x v reducesTo_S50000x64_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg8
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S50000x64 .f32) (main_arg1 : FVec F S50000x64 .f32) (main_arg2 : FVec F S50000x64 .f32) (main_arg3 : FVec F S50000x64 .f32) (main_arg4 : IVec S1600000 32) (main_arg5 : IVec S1600000 32) (main_arg6 : FVec F S128x128 .f32) (main_arg7 : FVec F S128 .f32) (main_arg8 : FVec F S128x64 .f32) (main_arg9 : FVec F S64 .f32) (main_arg10 : FVec F S256x128 .f32) (main_arg11 : FVec F S256x64 .f32) (main_arg12 : FVec F S256 .f32) (main_arg13 : FVec F S256 .f32) (main_arg14 : FVec F S64x128 .f32) (main_arg15 : FVec F S128 .f32) (main_arg16 : FVec F S128x32 .f32) (main_arg17 : FVec F S32 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S50000x64 .f32 := Host.absf main_arg2
  let main_cst_2 : FVec F S_ .f32 := constant S_ .f32 0x7F800000#32
  let main_v10 : FVec F S50000x64 .f32 := broadcastInDim S50000x64 ![] bcast_S_S50000x64 main_cst_2
  let main_v11 : IVec S50000x64 1 := cmpf .olt main_v9 main_v10
  let main_c_3 : IVec S_ 1 := constantI S_ 1 1#1
  let main_v12 : IVec S_ 1 := (fun x v => Host.reduce IntOp.andi x v reducesTo_S50000x64_S_d0_1 h_S_) main_v11 main_c_3
  let main_v13 : IVec S_ 1 := andi main_v8 main_v12
  let main_v14 : FVec F S50000x64 .f32 := Host.absf main_arg3
  let main_cst_4 : FVec F S_ .f32 := constant S_ .f32 0x7F800000#32
  let main_v15 : FVec F S50000x64 .f32 := broadcastInDim S50000x64 ![] bcast_S_S50000x64 main_cst_4
  let main_v16 : IVec S50000x64 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S50000x64 : Shape := ⟨2, ![50000, 64]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S256x128 : Shape := ⟨2, ![256, 128]⟩
abbrev S256x64 : Shape := ⟨2, ![256, 64]⟩
abbrev S256 : Shape := ⟨1, ![256]⟩
abbrev S64x128 : Shape := ⟨2, ![64, 128]⟩
abbrev S128x32 : Shape := ⟨2, ![128, 32]⟩
abbrev S32 : Shape := ⟨1, ![32]⟩
abbrev S_ : Shape := ⟨0, ![]⟩
abbrev S1600000x1 : Shape := ⟨2, ![1600000, 1]⟩
abbrev S1600000x64 : Shape := ⟨2, ![1600000, 64]⟩
abbrev S1600000x128 : Shape := ⟨2, ![1600000, 128]⟩
abbrev S1x128 : Shape := ⟨2, ![1, 128]⟩
abbrev S1x64 : Shape := ⟨2, ![1, 64]⟩
abbrev S16000x128 : Shape := ⟨2, ![16000, 128]⟩
abbrev S16000x64 : Shape := ⟨2, ![16000, 64]⟩
abbrev S128x256 : Shape := ⟨2, ![128, 256]⟩
abbrev S64x256 : Shape := ⟨2, ![64, 256]⟩
abbrev S1x256 : Shape := ⟨2, ![1, 256]⟩
abbrev S1x32 : Shape := ⟨2, ![1, 32]⟩
abbrev S50000x32 : Shape := ⟨2, ![50000, 32]⟩
abbrev S5000x64 : Shape := ⟨2, ![5000, 64]⟩
abbrev S5000x32 : Shape := ⟨2, ![5000, 32]⟩
abbrev S5000x128 : Shape := ⟨2, ![5000, 128]⟩
abbrev S5000x256 : Shape := ⟨2, ![5000, 256]⟩

abbrev nBuf : Space → Nat
  | .hbm => 53
  | .vmem => 30
  | .smem => 0
  | _ => 0

abbrev bufTy : (tb : Table) → Fin (tcTables nBuf tb) → BufTy
  | .hbm, ⟨0, _⟩ => ⟨S50000x64, .f32⟩
  | .hbm, ⟨1, _⟩ => ⟨S50000x64, .f32⟩
  | .hbm, ⟨2, _⟩ => ⟨S50000x64, .f32⟩
  | .hbm, ⟨3, _⟩ => ⟨S50000x64, .f32⟩
  | .hbm, ⟨4, _⟩ => ⟨S1600000, .i32⟩
  | .hbm, ⟨5, _⟩ => ⟨S1600000, .i32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S256x128, .f32⟩
  | .hbm, ⟨11, _⟩ => ⟨S256x64, .f32⟩
  | .hbm, ⟨12, _⟩ => ⟨S256, .f32⟩
  | .hbm, ⟨13, _⟩ => ⟨S256, .f32⟩
  | .hbm, ⟨14, _⟩ => ⟨S64x128, .f32⟩
  | .hbm, ⟨15, _⟩ => ⟨S128, .f32⟩
  | .hbm, ⟨16, _⟩ => ⟨S128x32, .f32⟩
  | .hbm, ⟨17, _⟩ => ⟨S32, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x64, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x64, .f32⟩
  | .hbm, ⟨36, _⟩ => ⟨S1600000x128, .f32⟩
  | .hbm, ⟨37, _⟩ => ⟨S1x128, .f32⟩
  | .hbm, ⟨38, _⟩ => ⟨S1x64, .f32⟩
  | .hbm, ⟨39, _⟩ => ⟨S1600000x64, .f32⟩
  | .hbm, ⟨40, _⟩ => ⟨S_, .f32⟩
  | .hbm, ⟨41, _⟩ => ⟨S50000x64, .f32⟩
  | .hbm, ⟨42, _⟩ => ⟨S1600000x1, .i32⟩
  | .hbm, ⟨43, _⟩ => ⟨S50000x64, .f32⟩
  | .hbm, ⟨44, _⟩ => ⟨S128x256, .f32⟩
  | .hbm, ⟨45, _⟩ => ⟨S64x256, .f32⟩
  | .hbm, ⟨46, _⟩ => ⟨S1x256, .f32⟩
  | .hbm, ⟨47, _⟩ => ⟨S1x256, .f32⟩
  | .hbm, ⟨48, _⟩ => ⟨S1x128, .f32⟩
  | .hbm, ⟨49, _⟩ => ⟨S1x32, .f32⟩
  | .hbm, ⟨50, _⟩ => ⟨S50000x32, .f32⟩
  | .hbm, ⟨51, _⟩ => ⟨S50000x64, .f32⟩
  | .hbm, ⟨52, _⟩ => ⟨S50000x64, .f32⟩
  | .local _ .vmem, ⟨0, _⟩ => ⟨S16000x128, .f32⟩
  | .local _ .vmem, ⟨1, _⟩ => ⟨S16000x128, .f32⟩
  | .local _ .vmem, ⟨2, _⟩ => ⟨S128x128, .f32⟩
  | .local _ .vmem, ⟨3, _⟩ => ⟨S1x128, .f32⟩
  | .local _ .vmem, ⟨4, _⟩ => ⟨S128x64, .f32⟩
  | .local _ .vmem, ⟨5, _⟩ => ⟨S1x64, .f32⟩
  | .local _ .vmem, ⟨6, _⟩ => ⟨S16000x64, .f32⟩
  | .local _ .vmem, ⟨7, _⟩ => ⟨S16000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S128x256, .f32⟩
  | .local _ .vmem, ⟨17, _⟩ => ⟨S64x256, .f32⟩
  | .local _ .vmem, ⟨18, _⟩ => ⟨S1x256, .f32⟩
  | .local _ .vmem, ⟨19, _⟩ => ⟨S1x256, .f32⟩
  | .local _ .vmem, ⟨20, _⟩ => ⟨S64x128, .f32⟩
  | .local _ .vmem, ⟨21, _⟩ => ⟨S1x128, .f32⟩
  | .local _ .vmem, ⟨22, _⟩ => ⟨S128x32, .f32⟩
  | .local _ .vmem, ⟨23, _⟩ => ⟨S1x32, .f32⟩
  | .local _ .vmem, ⟨24, _⟩ => ⟨S5000x32, .f32⟩
  | .local _ .vmem, ⟨25, _⟩ => ⟨S5000x32, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_c_1 : Ref sig .tc := ⟨.hbm, 27, rfl⟩
abbrev main_v7 : Ref sig .tc := ⟨.hbm, 28, rfl⟩
abbrev main_v8 : Ref sig .tc := ⟨.hbm, 29, rfl⟩
abbrev main_c_2 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27_0 : Ref sig .tc := ⟨.hbm, 50, rfl⟩
abbrev main_v27_1 : Ref sig .tc := ⟨.hbm, 51, rfl⟩
abbrev main_v27_2 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg10_0 : Ref sig .tc := ⟨.vmem, 22, rfl⟩
abbrev cc1_stg11_0 : Ref sig .tc := ⟨.vmem, 23, rfl⟩
abbrev cc1_stg12_0 : Ref sig .tc := ⟨.vmem, 24, rfl⟩
abbrev cc1_stg12_1 : Ref sig .tc := ⟨.vmem, 25, rfl⟩
abbrev cc1_stg13_0 : Ref sig .tc := ⟨.vmem, 26, rfl⟩
abbrev cc1_stg13_1 : Ref sig .tc := ⟨.vmem, 27, rfl⟩
abbrev cc1_stg14_0 : Ref sig .tc := ⟨.vmem, 28, rfl⟩
abbrev cc1_stg14_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22
abbrev cc1_sem11_0 : DmaSem sig := 23
abbrev cc1_sem12_0 : DmaSem sig := 24
abbrev cc1_sem12_1 : DmaSem sig := 25
abbrev cc1_sem13_0 : DmaSem sig := 26
abbrev cc1_sem13_1 : DmaSem sig := 27
abbrev cc1_sem14_0 : DmaSem sig := 28
abbrev cc1_sem14_1 : DmaSem sig := 29

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128x32 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x32 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S5000x32 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S5000x64 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S5000x64 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x128_d1 : Shape.Concatenates [S1600000x64, S1600000x64] S1600000x128 1
  shapeCasts_S128_S1x128 : S128.ShapeCasts S1x128
  shapeCasts_S64_S1x64 : S64.ShapeCasts S1x64
  inb_S16000x128_S16000x128_0_0 : ∀ a, (![0, 0] : Fin 2 → Nat) a + S16000x128.size a ≤ S16000x128.size a
  h_S16000x128 : 0 < S16000x128.numel
  shapeCasts_S16000x128_S16000x128 : S16000x128.ShapeCasts S16000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S16000x128 : S1x128.Broadcasts S16000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S16000x64 : S1x64.Broadcasts S16000x64
  inb_S16000x64_S16000x64_0_0 : ∀ a, (![0, 0] : Fin 2 → Nat) a + S16000x64.size a ≤ S16000x64.size a
  h_S16000x64 : 0 < S16000x64.numel
  bcast_S_S50000x64 : S_.BroadcastsInDim S50000x64 (![] : Fin 0 → Fin S50000x64.rank)
  transposes_S256x128_S128x256_1_0 : S256x128.Transposes [1, 0] S128x256
  transposes_S256x64_S64x256_1_0 : S256x64.Transposes [1, 0] S64x256
  shapeCasts_S256_S1x256 : S256.ShapeCasts S1x256
  shapeCasts_S32_S1x32 : S32.ShapeCasts S1x32
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  concatenates_S5000x64_S5000x64_S5000x128_d1 : Shape.Concatenates [S5000x64, S5000x64] S5000x128 1
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  slices_S5000x256_o0_0_S5000x64 : S5000x256.Slices ![0, 0] S5000x64
  slices_S5000x256_o0_64_S5000x64 : S5000x256.Slices ![0, 64] S5000x64
  slices_S5000x256_o0_128_S5000x64 : S5000x256.Slices ![0, 128] S5000x64
  slices_S5000x256_o0_192_S5000x64 : S5000x256.Slices ![0, 192] S5000x64
  inb_S64x128_S64x128_0_0 : ∀ a, (![0, 0] : Fin 2 → Nat) a + S64x128.size a ≤ S64x128.size a
  h_S64x128 : 0 < S64x128.numel
  broadcasts_S1x128_S5000x128 : S1x128.Broadcasts S5000x128
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  gather_S50000x64_S1600000x1_S1600000x64_1_0_n_n_0_1_164_wf : GatherDims.WF S50000x64 S1600000x1 S1600000x64 [1] [0] [] [0] [] 1 ![1, 64]
  dot_S16000x128_S128x128_S16000x128_1_0_0_1_n_n_wf : DotDims.WF S16000x128 S128x128 S16000x128 [1] [0] [0] [1] [] []
  dot_S16000x128_S128x64_S16000x64_1_0_0_1_n_n_wf : DotDims.WF S16000x128 S128x64 S16000x64 [1] [0] [0] [1] [] []
  scatter_S50000x64_S1600000x1_S1600000x64_1_0_0_1_wf : ScatterDims.WF S50000x64 S1600000x1 S1600000x64 [1] [0] [0] 1
  dot_S5000x128_S128x256_S5000x256_1_0_0_1_n_n_wf : DotDims.WF S5000x128 S128x256 S5000x256 [1] [0] [0] [1] [] []
  dot_S5000x64_S64x256_S5000x256_1_0_0_1_n_n_wf : DotDims.WF S5000x64 S64x256 S5000x256 [1] [0] [0] [1] [] []
  dot_S5000x64_S64x128_S5000x128_1_0_0_1_n_n_wf : DotDims.WF S5000x64 S64x128 S5000x128 [1] [0] [0] [1] [] []
  dot_S5000x128_S128x32_S5000x32_1_0_0_1_n_n_wf : DotDims.WF S5000x128 S128x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x128.size a ≤ S1600000x128.size a
  hwx0_0 : ∀ i : grid0.Coords, EltTy.bits .f32 = 32 ∨ (Rect.block (s := S1600000x128) S16000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16000x64.size a ≤ S1600000x64.size a
  hwx0_5 : ∀ i : grid0.Coords, EltTy.bits .f32 = 32 ∨ (Rect.block (s := S1600000x64) S16000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x256.size a ≤ S128x256.size a
  hwx1_4 : ∀ i : grid1.Coords, EltTy.bits .f32 = 32 ∨ (Rect.block (s := S128x256) S128x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x256.size a ≤ S64x256.size a
  hwx1_5 : ∀ i : grid1.Coords, EltTy.bits .f32 = 32 ∨ (Rect.block (s := S64x256) S64x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x128.size a ≤ S64x128.size a
  hwx1_8 : ∀ i : grid1.Coords, EltTy.bits .f32 = 32 ∨ (Rect.block (s := S64x128) S64x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128x32.size a ≤ S128x32.size a
  hwx1_10 : ∀ i : grid1.Coords, EltTy.bits .f32 = 32 ∨ (Rect.block (s := S128x32) S128x32.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x32.size a ≤ S1x32.size a
  hwx1_11 : ∀ i : grid1.Coords, EltTy.bits .f32 = 32 ∨ (Rect.block (s := S1x32) S1x32.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S5000x32.size a ≤ S50000x32.size a
  hwx1_12 : ∀ i : grid1.Coords, EltTy.bits .f32 = 32 ∨ (Rect.block (s := S50000x32) S5000x32.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S5000x64.size a ≤ S50000x64.size a
  hwx1_13 : ∀ i : grid1.Coords, EltTy.bits .f32 = 32 ∨ (Rect.block (s := S50000x64) S5000x64.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S5000x64.size a ≤ S50000x64.size a
  hwx1_14 : ∀ i : grid1.Coords, EltTy.bits .f32 = 32 ∨ (Rect.block (s := S50000x64) S5000x64.size (cc1_transform_14 i) (hinb1_14 i)).WholeWords (EltTy.packing .f32)

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def dot_S16000x128_S128x128_S16000x128_1_0_0_1_n_n : DotDims S16000x128 S128x128 S16000x128 where
  lhsContracting := [1]
  rhsContracting := [0]
  lhsNonContracting := [0]
  rhsNonContracting := [1]
  lhsBatch := []
  rhsBatch := []
  wf := dot_S16000x128_S128x128_S16000x128_1_0_0_1_n_n_wf
def dot_S16000x128_S128x64_S16000x64_1_0_0_1_n_n : DotDims S16000x128 S128x64 S16000x64 where
  lhsContracting := [1]
  rhsContracting := [0]
  lhsNonContracting := [0]
  rhsNonContracting := [1]
  lhsBatch := []
  rhsBatch := []
  wf := dot_S16000x128_S128x64_S16000x64_1_0_0_1_n_n_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x64_S64x256_S5000x256_1_0_0_1_n_n : DotDims S5000x64 S64x256 S5000x256 where
  lhsContracting := [1]
  rhsContracting := [0]
  lhsNonContracting := [0]
  rhsNonContracting := [1]
  lhsBatch := []
  rhsBatch := []
  wf := dot_S5000x64_S64x256_S5000x256_1_0_0_1_n_n_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf

abbrev win0_0 : Pipeline.Window sig grid0 :=
  Pipeline.Window.ofSpec (Memref.whole main_v14) S16000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S16000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S5000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v21) S128x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22) S64x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v23) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v24) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg14) S64x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v25) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg16) S128x32.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v26) S1x32.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v27_0) S5000x32.size cc1_transform_12 reads1_12 true false 2 stage1_12 sem1_12
    hrank1 hreads1_12 hinb1_12 nbuf1_12 (Memref.isWhole_whole _) hwx1_12 hstage1_12

abbrev win1_13 : Pipeline.Window sig grid1 :=
  Pipeline.Window.ofSpec (Memref.whole main_v27_1) S5000x64.size cc1_transform_13 reads1_13 true false 2 stage1_13 sem1_13
    hrank1 hreads1_13 hinb1_13 nbuf1_13 (Memref.isWhole_whole _) hwx1_13 hstage1_13

abbrev win1_14 : Pipeline.Window sig grid1 :=
  Pipeline.Window.ofSpec (Memref.whole main_v27_2) S5000x64.size cc1_transform_14 reads1_14 true false 2 stage1_14 sem1_14
    hrank1 hreads1_14 hinb1_14 nbuf1_14 (Memref.isWhole_whole _) hwx1_14 hstage1_14

abbrev win1 : Fin 15 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | ⟨_ + 15, h⟩ => absurd h (Nat.not_lt.2 (Nat.le_add_left _ _))
abbrev spec1 : Fin 15 → Pipeline.WinSpec sig grid1.rank := fun w => (win1 w).toWinSpec

class Facts : Prop extends Facts₀ where

variable [Facts]
-- ==== ReferenceIdeal.lean ====
abbrev S50000x64 : Shape := ⟨2, ![50000, 64]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S256x128 : Shape := ⟨2, ![256, 128]⟩
abbrev S256x64 : Shape := ⟨2, ![256, 64]⟩
abbrev S256 : Shape := ⟨1, ![256]⟩
abbrev S64x128 : Shape := ⟨2, ![64, 128]⟩
abbrev S128x32 : Shape := ⟨2, ![128, 32]⟩
abbrev S32 : Shape := ⟨1, ![32]⟩
abbrev S_ : Shape := ⟨0, ![]⟩
abbrev S1600000x1 : Shape := ⟨2, ![1600000, 1]⟩
abbrev S1600000x64 : Shape := ⟨2, ![1600000, 64]⟩
abbrev S1600000x128 : Shape := ⟨2, ![1600000, 128]⟩
abbrev S1x128 : Shape := ⟨2, ![1, 128]⟩
abbrev S1x64 : Shape := ⟨2, ![1, 64]⟩
abbrev S50000x128 : Shape := ⟨2, ![50000, 128]⟩
abbrev S128x256 : Shape := ⟨2, ![128, 256]⟩
abbrev S50000x256 : Shape := ⟨2, ![50000, 256]⟩
abbrev S1x256 : Shape := ⟨2, ![1, 256]⟩
abbrev S64x256 : Shape := ⟨2, ![64, 256]⟩
abbrev S50000x32 : Shape := ⟨2, ![50000, 32]⟩
abbrev S1x32 : Shape := ⟨2, ![1, 32]⟩

abbrev nBuf : Space → Nat
  | .hbm => 109
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S50000x64, .f32⟩
  | .hbm, ⟨2, _⟩ => ⟨S50000x64, .f32⟩
  | .hbm, ⟨3, _⟩ => ⟨S50000x64, .f32⟩
  | .hbm, ⟨4, _⟩ => ⟨S1600000, .i32⟩
  | .hbm, ⟨5, _⟩ => ⟨S1600000, .i32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S256x128, .f32⟩
  | .hbm, ⟨11, _⟩ => ⟨S256x64, .f32⟩
  | .hbm, ⟨12, _⟩ => ⟨S256, .f32⟩
  | .hbm, ⟨13, _⟩ => ⟨S256, .f32⟩
  | .hbm, ⟨14, _⟩ => ⟨S64x128, .f32⟩
  | .hbm, ⟨15, _⟩ => ⟨S128, .f32⟩
  | .hbm, ⟨16, _⟩ => ⟨S128x32, .f32⟩
  | .hbm, ⟨17, _⟩ => ⟨S32, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x64, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x64, .f32⟩
  | .hbm, ⟨36, _⟩ => ⟨S1600000x128, .f32⟩
  | .hbm, ⟨37, _⟩ => ⟨S1600000x128, .f32⟩
  | .hbm, ⟨38, _⟩ => ⟨S1x128, .f32⟩
  | .hbm, ⟨39, _⟩ => ⟨S1600000x128, .f32⟩
  | .hbm, ⟨40, _⟩ => ⟨S1600000x128, .f32⟩
  | .hbm, ⟨41, _⟩ => ⟨S_, .f32⟩
  | .hbm, ⟨42, _⟩ => ⟨S1600000x128, .f32⟩
  | .hbm, ⟨43, _⟩ => ⟨S1600000x128, .f32⟩
  | .hbm, ⟨44, _⟩ => ⟨S1600000x64, .f32⟩
  | .hbm, ⟨45, _⟩ => ⟨S1x64, .f32⟩
  | .hbm, ⟨46, _⟩ => ⟨S1600000x64, .f32⟩
  | .hbm, ⟨47, _⟩ => ⟨S1600000x64, .f32⟩
  | .hbm, ⟨48, _⟩ => ⟨S_, .f32⟩
  | .hbm, ⟨49, _⟩ => ⟨S50000x64, .f32⟩
  | .hbm, ⟨50, _⟩ => ⟨S1600000x1, .i32⟩
  | .hbm, ⟨51, _⟩ => ⟨S50000x64, .f32⟩
  | .hbm, ⟨52, _⟩ => ⟨S50000x128, .f32⟩
  | .hbm, ⟨53, _⟩ => ⟨S128x256, .f32⟩
  | .hbm, ⟨54, _⟩ => ⟨S50000x256, .f32⟩
  | .hbm, ⟨55, _⟩ => ⟨S1x256, .f32⟩
  | .hbm, ⟨56, _⟩ => ⟨S50000x256, .f32⟩
  | .hbm, ⟨57, _⟩ => ⟨S50000x256, .f32⟩
  | .hbm, ⟨58, _⟩ => ⟨S64x256, .f32⟩
  | .hbm, ⟨59, _⟩ => ⟨S50000x256, .f32⟩
  | .hbm, ⟨60, _⟩ => ⟨S50000x256, .f32⟩
  | .hbm, ⟨61, _⟩ => ⟨S1x256, .f32⟩
  | .hbm, ⟨62, _⟩ => ⟨S50000x256, .f32⟩
  | .hbm, ⟨63, _⟩ => ⟨S50000x256, .f32⟩
  | .hbm, ⟨64, _⟩ => ⟨S50000x64, .f32⟩
  | .hbm, ⟨65, _⟩ => ⟨S50000x64, .f32⟩
  | .hbm, ⟨66, _⟩ => ⟨S50000x64, .f32⟩
  | .hbm, ⟨67, _⟩ => ⟨S50000x64, .f32⟩
  | .hbm, ⟨68, _⟩ => ⟨S50000x64, .f32⟩
  | .hbm, ⟨69, _⟩ => ⟨S50000x64, .f32⟩
  | .hbm, ⟨70, _⟩ => ⟨S_, .f32⟩
  | .hbm, ⟨71, _⟩ => ⟨S50000x64, .f32⟩
  | .hbm, ⟨72, _⟩ => ⟨S50000x64, .f32⟩
  | .hbm, ⟨73, _⟩ => ⟨S_, .f32⟩
  | .hbm, ⟨74, _⟩ => ⟨S50000x64, .f32⟩
  | .hbm, ⟨75, _⟩ => ⟨S50000x64, .f32⟩
  | .hbm, ⟨76, _⟩ => ⟨S50000x64, .f32⟩
  | .hbm, ⟨77, _⟩ => ⟨S50000x64, .f32⟩
  | .hbm, ⟨78, _⟩ => ⟨S50000x64, .f32⟩
  | .hbm, ⟨79, _⟩ => ⟨S_, .f32⟩
  | .hbm, ⟨80, _⟩ => ⟨S50000x64, .f32⟩
  | .hbm, ⟨81, _⟩ => ⟨S50000x64, .f32⟩
  | .hbm, ⟨82, _⟩ => ⟨S_, .f32⟩
  | .hbm, ⟨83, _⟩ => ⟨S50000x64, .f32⟩
  | .hbm, ⟨84, _⟩ => ⟨S50000x64, .f32⟩
  | .hbm, ⟨85, _⟩ => ⟨S50000x64, .f32⟩
  | .hbm, ⟨86, _⟩ => ⟨S50000x64, .f32⟩
  | .hbm, ⟨87, _⟩ => ⟨S50000x64, .f32⟩
  | .hbm, ⟨88, _⟩ => ⟨S50000x64, .f32⟩
  | .hbm, ⟨89, _⟩ => ⟨S50000x64, .f32⟩
  | .hbm, ⟨90, _⟩ => ⟨S_, .f32⟩
  | .hbm, ⟨91, _⟩ => ⟨S50000x64, .f32⟩
  | .hbm, ⟨92, _⟩ => ⟨S50000x64, .f32⟩
  | .hbm, ⟨93, _⟩ => ⟨S_, .f32⟩
  | .hbm, ⟨94, _⟩ => ⟨S50000x64, .f32⟩
  | .hbm, ⟨95, _⟩ => ⟨S50000x64, .f32⟩
  | .hbm, ⟨96, _⟩ => ⟨S50000x64, .f32⟩
  | .hbm, ⟨97, _⟩ => ⟨S50000x64, .f32⟩
  | .hbm, ⟨98, _⟩ => ⟨S50000x128, .f32⟩
  | .hbm, ⟨99, _⟩ => ⟨S1x128, .f32⟩
  | .hbm, ⟨100, _⟩ => ⟨S50000x128, .f32⟩
  | .hbm, ⟨101, _⟩ => ⟨S50000x128, .f32⟩
  | .hbm, ⟨102, _⟩ => ⟨S_, .f32⟩
  | .hbm, ⟨103, _⟩ => ⟨S50000x128, .f32⟩
  | .hbm, ⟨104, _⟩ => ⟨S50000x128, .f32⟩
  | .hbm, ⟨105, _⟩ => ⟨S50000x32, .f32⟩
  | .hbm, ⟨106, _⟩ => ⟨S1x32, .f32⟩
  | .hbm, ⟨107, _⟩ => ⟨S50000x32, .f32⟩
  | .hbm, ⟨108, _⟩ => ⟨S50000x32, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_c_1 : Ref sig .tc := ⟨.hbm, 27, rfl⟩
abbrev main_v7 : Ref sig .tc := ⟨.hbm, 28, rfl⟩
abbrev main_v8 : Ref sig .tc := ⟨.hbm, 29, rfl⟩
abbrev main_c_2 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_call0_cst : Ref sig .tc := ⟨.hbm, 41, rfl⟩
abbrev main_call0_v0 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_3 : Ref sig .tc := ⟨.hbm, 70, rfl⟩
abbrev main_v45 : Ref sig .tc := ⟨.hbm, 71, rfl⟩
abbrev main_v46 : Ref sig .tc := ⟨.hbm, 72, rfl⟩
abbrev main_cst_4 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_5 : Ref sig .tc := ⟨.hbm, 79, rfl⟩
abbrev main_v52 : Ref sig .tc := ⟨.hbm, 80, rfl⟩
abbrev main_v53 : Ref sig .tc := ⟨.hbm, 81, rfl⟩
abbrev main_cst_6 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_7 : Ref sig .tc := ⟨.hbm, 90, rfl⟩
abbrev main_v61 : Ref sig .tc := ⟨.hbm, 91, rfl⟩
abbrev main_v62 : Ref sig .tc := ⟨.hbm, 92, rfl⟩
abbrev main_cst_8 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_call1_cst : Ref sig .tc := ⟨.hbm, 102, rfl⟩
abbrev main_call1_v0 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x128_d1 : Shape.Concatenates [S1600000x64, S1600000x64] S1600000x128 1
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S50000x64 : S_.BroadcastsInDim S50000x64 (![] : Fin 0 → Fin S50000x64.rank)
  concatenates_S50000x64_S50000x64_S50000x128_d1 : Shape.Concatenates [S50000x64, S50000x64] S50000x128 1
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  transposes_S256x64_S64x256_1_0 : S256x64.Transposes [1, 0] S64x256
  slices_S50000x256_S50000x64_0_0 : S50000x256.Slices ![0, 0] S50000x64
  slices_S50000x256_S50000x64_0_64 : S50000x256.Slices ![0, 64] S50000x64
  slices_S50000x256_S50000x64_0_128 : S50000x256.Slices ![0, 128] S50000x64
  slices_S50000x256_S50000x64_0_192 : S50000x256.Slices ![0, 192] S50000x64
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  gather_S50000x64_S1600000x1_S1600000x64_1_0_n_n_0_1_164_wf : GatherDims.WF S50000x64 S1600000x1 S1600000x64 [1] [0] [] [0] [] 1 ![1, 64]
  dot_S1600000x128_S128x128_S1600000x128_1_0_0_1_n_n_wf : DotDims.WF S1600000x128 S128x128 S1600000x128 [1] [0] [0] [1] [] []
  dot_S1600000x128_S128x64_S1600000x64_1_0_0_1_n_n_wf : DotDims.WF S1600000x128 S128x64 S1600000x64 [1] [0] [0] [1] [] []
  scatter_S50000x64_S1600000x1_S1600000x64_1_0_0_1_wf : ScatterDims.WF S50000x64 S1600000x1 S1600000x64 [1] [0] [0] 1
  dot_S50000x128_S128x256_S50000x256_1_0_0_1_n_n_wf : DotDims.WF S50000x128 S128x256 S50000x256 [1] [0] [0] [1] [] []
  dot_S50000x64_S64x256_S50000x256_1_0_0_1_n_n_wf : DotDims.WF S50000x64 S64x256 S50000x256 [1] [0] [0] [1] [] []
  dot_S50000x64_S64x128_S50000x128_1_0_0_1_n_n_wf : DotDims.WF S50000x64 S64x128 S50000x128 [1] [0] [0] [1] [] []
  dot_S50000x128_S128x32_S50000x32_1_0_0_1_n_n_wf : DotDims.WF S50000x128 S128x32 S50000x32 [1] [0] [0] [1] [] []

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def dot_S1600000x128_S128x128_S1600000x128_1_0_0_1_n_n : DotDims S1600000x128 S128x128 S1600000x128 where
  lhsContracting := [1]
  rhsContracting := [0]
  lhsNonContracting := [0]
  rhsNonContracting := [1]
  lhsBatch := []
  rhsBatch := []
  wf := dot_S1600000x128_S128x128_S1600000x128_1_0_0_1_n_n_wf
def dot_S1600000x128_S128x64_S1600000x64_1_0_0_1_n_n : DotDims S1600000x128 S128x64 S1600000x64 where
  lhsContracting := [1]
  rhsContracting := [0]
  lhsNonContracting := [0]
  rhsNonContracting := [1]
  lhsBatch := []
  rhsBatch := []
  wf := dot_S1600000x128_S128x64_S1600000x64_1_0_0_1_n_n_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x64_S64x256_S50000x256_1_0_0_1_n_n : DotDims S50000x64 S64x256 S50000x256 where
  lhsContracting := [1]
  rhsContracting := [0]
  lhsNonContracting := [0]
  rhsNonContracting := [1]
  lhsBatch := []
  rhsBatch := []
  wf := dot_S50000x64_S64x256_S50000x256_1_0_0_1_n_n_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S50000x128_S128x32_S50000x32_1_0_0_1_n_n : DotDims S50000x128 S128x32 S50000x32 where
  lhsContracting := [1]
  rhsContracting := [0]
  lhsNonContracting := [0]
  rhsNonContracting := [1]
  lhsBatch := []
  rhsBatch := []
  wf := dot_S50000x128_S128x32_S50000x32_1_0_0_1_n_n_wf

class Facts : Prop extends Facts₀ where

variable [Facts]
-- ==== Proof.Spec.lean ====
/-
  The mathematics of one message-passing step, index by index on the extended reals.

  An edge's message is a two-layer perceptron of the concatenated hidden states of its end points; a node's incoming
  messages are summed; the node's state is updated by one LSTM cell step on the concatenation of its input and the summed
  messages; the output is a two-layer perceptron of the new hidden state. Every function here takes arrays as functions
  of their indices and states one entry of the result.
-/
import Idealize.ShloMosaic.PureOps.Ideal
import Idealize.ShloMosaic.Lib.ValueIdx

noncomputable section

open scoped BigOperators

namespace Cert.Spec

open Idealize.ShloMosaic Idealize.ShloMosaic.ValueIdx

/-- A rank-two array of extended reals. -/
abbrev Mat (a b : Nat) : Type := (⟨2, ![a, b]⟩ : Shape).Idx → EReal
/-- A rank-one array of extended reals. -/
abbrev Vct (a : Nat) : Type := (⟨1, ![a]⟩ : Shape).Idx → EReal

variable {N a b c : Nat}

/-- One dense layer's entry (r, k): the row r of z against column k of w, plus the bias. -/
def dense (z : Mat N a) (w : Mat a b) (β : Vct b) (r : Fin N) (k : Fin b) : EReal :=
  (∑ l : Fin a, z (ix2 r l) * w (ix2 l k)) + β (ix1 k)

/-- The two-layer perceptron: a dense layer, the positive part, a second dense layer. -/
def mlp (z : Mat N a) (w₁ : Mat a b) (β₁ : Vct b) (w₂ : Mat b c) (β₂ : Vct c) : Mat N c := fun i =>
  (∑ k : Fin b, max (dense z w₁ β₁ (i 0) k) 0 * w₂ (ix2 k (i 1))) + β₂ (ix1 (i 1))

/-- The four gates' pre-activations at (r, q): the input row against column q of the (transposed) input weights, plus
    the hidden row against column q of the (transposed) hidden weights, plus the two biases. -/
def gates (g : Mat N 128) (h : Mat N 64) (wih : Mat 128 256) (whh : Mat 64 256) (bih bhh : Vct 256)
    (r : Fin N) (q : Fin 256) : EReal :=
  (((∑ l : Fin 128, g (ix2 r l) * wih (ix2 l q)) + ∑ l : Fin 64, h (ix2 r l) * whh (ix2 l q)) + bih (ix1 q)) + bhh (ix1 q)

/-- Column j of gate block s (the blocks are input, forget, cell, output: 64 columns each). -/
def gcol (s : Fin 4) (j : Fin 64) : Fin 256 := ⟨64 * s.val + j.val, by omega⟩

/-- The new cell state: forget gate times the old cell state plus input gate times the candidate. -/
def cellNew (g : Mat N 128) (h c₀ : Mat N 64) (wih : Mat 128 256) (whh : Mat 64 256) (bih bhh : Vct 256) : Mat N 64 :=
  fun i =>
    Ideal.logistic (gates g h wih whh bih bhh (i 0) (gcol 1 (i 1))) * c₀ i
      + Ideal.logistic (gates g h wih whh bih bhh (i 0) (gcol 0 (i 1))) * Ideal.tanh (gates g h wih whh bih bhh (i 0) (gcol 2 (i 1)))

/-- The new hidden state: output gate times the hyperbolic tangent of the new cell state. -/
def hiddenNew (g : Mat N 128) (h c₀ : Mat N 64) (wih : Mat 128 256) (whh : Mat 64 256) (bih bhh : Vct 256) : Mat N 64 :=
  fun i =>
    Ideal.logistic (gates g h wih whh bih bhh (i 0) (gcol 3 (i 1))) * Ideal.tanh (cellNew g h c₀ wih whh bih bhh i)

/-- Two arrays of 64 columns side by side. -/
def sideBySide (x y : Mat N 64) : Mat N 128 := fun i =>
  if hlt : (i 1).val < 64 then x (ix2 (i 0) ⟨(i 1).val, hlt⟩) else y (ix2 (i 0) ⟨(i 1).val - 64, by have := idx2_lt1 i; omega⟩)

/-- A row block: rows r₀ … r₀ + M − 1 of an array. -/
def rowsFrom {M K : Nat} (r₀ : Nat) (hM : r₀ + M ≤ N) (z : Mat N K) : Mat M K := fun i =>
  z (ix2 ⟨r₀ + (i 0).val, by have := idx2_lt0 i; omega⟩ (i 1))

/-- The perceptron works row by row: a row block of its result is its result on the row block. -/
theorem mlp_rowsFrom {M : Nat} (r₀ : Nat) (hM : r₀ + M ≤ N) (z : Mat N a) (w₁ : Mat a b) (β₁ : Vct b) (w₂ : Mat b c)
    (β₂ : Vct c) : rowsFrom r₀ hM (mlp z w₁ β₁ w₂ β₂) = mlp (rowsFrom r₀ hM z) w₁ β₁ w₂ β₂ := rfl

/-- The LSTM cell works row by row, and so does putting two arrays side by side. -/
theorem cellNew_rowsFrom {M : Nat} (r₀ : Nat) (hM : r₀ + M ≤ N) (g : Mat N 128) (h c₀ : Mat N 64) (wih : Mat 128 256)
    (whh : Mat 64 256) (bih bhh : Vct 256) :
    rowsFrom r₀ hM (cellNew g h c₀ wih whh bih bhh)
      = cellNew (rowsFrom r₀ hM g) (rowsFrom r₀ hM h) (rowsFrom r₀ hM c₀) wih whh bih bhh := rfl

theorem hiddenNew_rowsFrom {M : Nat} (r₀ : Nat) (hM : r₀ + M ≤ N) (g : Mat N 128) (h c₀ : Mat N 64) (wih : Mat 128 256)
    (whh : Mat 64 256) (bih bhh : Vct 256) :
    rowsFrom r₀ hM (hiddenNew g h c₀ wih whh bih bhh)
      = hiddenNew (rowsFrom r₀ hM g) (rowsFrom r₀ hM h) (rowsFrom r₀ hM c₀) wih whh bih bhh := rfl

theorem sideBySide_rowsFrom {M : Nat} (r₀ : Nat) (hM : r₀ + M ≤ N) (x y : Mat N 64) :
    rowsFrom r₀ hM (sideBySide x y) = sideBySide (rowsFrom r₀ hM x) (rowsFrom r₀ hM y) := rfl

/-- A one-row array as a vector. -/
def flat (v : Mat 1 a) : Vct a := fun k => v (ix2 (0 : Fin 1) (k 0))

end Cert.Spec

end
-- ==== Proof.LibContraction.lean ====
/-
  A contraction over ONE axis, with no batch axis and one free axis on each operand, read by coordinates.

  For dimension numbers `d` whose contracting lists are the singletons `[cl]` and `[cr]`, the contraction's index set
  is in bijection with `Fin n`, `n` the extent of the contracted axis (`contrFin`), so a sum over it is a sum over `Fin n`
  (`sum_contr`). At the contraction position that `i : Fin n` names, the left operand's index has `i` on its contracted
  axis and the result's first coordinate on its free axis; the right operand's has `i` on its contracted axis and the
  result's second coordinate on its free axis. Each of the four facts is stated of the coordinate's VALUE (a natural
  number), so that a proof at literal shapes finishes with `Fin.ext`.
-/
import Idealize.ShloMosaic.PureOps.Ideal.Laws
import Idealize.ShloMosaic.Lib.ValueIdx

noncomputable section

open scoped BigOperators

namespace Cert.Lib.Contraction

open Idealize.ShloMosaic Idealize.ShloMosaic.ValueIdx

variable {sl sr so : Shape} (d : DotDims sl sr so)

/-- One contracted axis: the contraction's shape has rank one. -/
theorem contr_rank {cl : Fin sl.rank} (hc : d.lhsContracting = [cl]) : d.contr.rank = 1 :=
  d.rank_contr.trans (by rw [hc]; rfl)

/-- Its one extent is the contracted axis's. -/
theorem contr_size {cl : Fin sl.rank} (hc : d.lhsContracting = [cl]) (n : Nat) (hn : sl.size cl = n) :
    d.contr.size ⟨0, by rw [contr_rank d hc]; exact Nat.one_pos⟩ = n := by
  have h := d.size_contr 0 (by rw [hc]; exact Nat.one_pos)
  rw [← hn]
  refine h.trans ?_
  simp [hc]

/-- The contraction's positions are the numbers below the contracted extent. -/
def contrFin {cl : Fin sl.rank} (hc : d.lhsContracting = [cl]) (n : Nat) (hn : sl.size cl = n) : d.contr.Idx ≃ Fin n :=
  contrEquiv1 d n (contr_rank d hc) (contr_size d hc n hn)

/-- A sum over the contraction's positions is the sum over those numbers. -/
theorem sum_contr {M : Type*} [AddCommMonoid M] {cl : Fin sl.rank} (hc : d.lhsContracting = [cl]) (n : Nat)
    (hn : sl.size cl = n) (f : d.contr.Idx → M) :
    ∑ k, f k = ∑ i : Fin n, f ((contrFin d hc n hn).symm i) :=
  (Equiv.sum_comp (contrFin d hc n hn).symm f).symm

/-- On its contracted axis the left operand's index is the position. -/
theorem lhs_contracted {cl : Fin sl.rank} (hc : d.lhsContracting = [cl]) (n : Nat) (hn : sl.size cl = n)
    (j : so.Idx) (i : Fin n) : (d.lhsIdx j ((contrFin d hc n hn).symm i) cl).val = i.val :=
  (d.lhsIdx_val_of_single hc j _).trans (contrEquiv1_symm_val d n (contr_rank d hc) (contr_size d hc n hn) i)

/-- On its contracted axis the right operand's index is the position. -/
theorem rhs_contracted {cl : Fin sl.rank} {cr : Fin sr.rank} (hc : d.lhsContracting = [cl]) (hc' : d.rhsContracting = [cr])
    (n : Nat) (hn : sl.size cl = n) (j : so.Idx) (i : Fin n) :
    (d.rhsIdx j ((contrFin d hc n hn).symm i) cr).val = i.val :=
  (d.rhsIdx_val_of_single hc' j _).trans (contrEquiv1_symm_val d n (contr_rank d hc) (contr_size d hc n hn) i)

/-- With no batch axis, the left operand's one free axis reads the result's first coordinate, at every position. -/
theorem lhs_free {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one free axis on the left, the right operand's one free axis reads the result's second
    coordinate, at every position. -/
theorem rhs_free {nl : Fin sl.rank} {nr : Fin sr.rank} (hb : d.lhsBatch = []) (hb' : d.rhsBatch = [])
    (hn : d.lhsNonContracting = [nl]) (hn' : d.rhsNonContracting = [nr]) (j : so.Idx) (k : d.contr.Idx)
    (h1 : 1 < so.rank) : (d.rhsIdx j k nr).val = (j ⟨1, h1⟩).val := by
  have hnb : nr ∉ d.rhsBatch := by rw [hb']; exact List.not_mem_nil
  have hmem : nr ∈ d.rhsNonContracting := by rw [hn']; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn, hn'])

end Cert.Lib.Contraction

end
-- ==== Proof.LibRows.lean ====
/-
  Matrix products of rank-two arrays read by coordinates, at the exact instance.

  For dimension numbers that contract the left operand's axis 1 with the right operand's axis 0, with no batch axis,
  the product of an [A, n] array with an [n, B] array has at (p, q) the sum over i < n of left (p, i) times right (i, q).
  Stated for the accelerator's product into a zero accumulator and for the host's product.
-/
import proofs.«139653_j38843684225221_1_alg».proof.Proof.LibContraction
import Idealize.ShloMosaic.PureOps.Ideal.Laws
import Idealize.ShloMosaic.Lib.ValueIdx

noncomputable section

open scoped BigOperators

namespace Cert.Lib.Rows

open Idealize.ShloMosaic Idealize.ShloMosaic.ValueIdx Cert.Lib.Contraction

variable {A n B : Nat}

/-- The plain rank-two contraction: left axis 1 against right axis 0, rows free on the left, columns free on the right. -/
structure Plain (d : DotDims (⟨2, ![A, n]⟩ : Shape) (⟨2, ![n, B]⟩ : Shape) (⟨2, ![A, B]⟩ : Shape)) : Prop where
  lc : d.lhsContracting = [1]
  rc : d.rhsContracting = [0]
  lb : d.lhsBatch = []
  rb : d.rhsBatch = []
  ln : d.lhsNonContracting = [0]
  rn : d.rhsNonContracting = [1]

variable {d : DotDims (⟨2, ![A, n]⟩ : Shape) (⟨2, ![n, B]⟩ : Shape) (⟨2, ![A, B]⟩ : Shape)}

/-- The left operand's index at a contraction position: the result's row, the position. -/
theorem lhsIdx_eq (hd : Plain d) (p : Fin A) (q : Fin B) (i : Fin n) :
    d.lhsIdx (ix2 p q) ((contrFin d hd.lc n rfl).symm i) = ix2 p i := by
  funext a
  match a with
  | ⟨0, _⟩ => exact Fin.ext (lhs_free d hd.lb hd.ln (ix2 p q) _ Nat.zero_lt_two)
  | ⟨1, _⟩ => exact Fin.ext (lhs_contracted d hd.lc n rfl (ix2 p q) i)

/-- The right operand's index at a contraction position: the position, the result's column. -/
theorem rhsIdx_eq (hd : Plain d) (p : Fin A) (q : Fin B) (i : Fin n) :
    d.rhsIdx (ix2 p q) ((contrFin d hd.lc n rfl).symm i) = ix2 i q := by
  funext a
  match a with
  | ⟨0, _⟩ => exact Fin.ext (rhs_contracted d hd.lc hd.rc n rfl (ix2 p q) i)
  | ⟨1, _⟩ => exact Fin.ext (rhs_free d hd.lb hd.rb hd.ln hd.rn (ix2 p q) _ Nat.one_lt_two)

/-- The accelerator's product into a zero accumulator, at (p, q). -/
theorem matmul_zero_ix2 {φ₁ φ₂ : FTy} (hd : Plain d) (prec : Option ContractPrecision)
    (l : FVec Ideal (⟨2, ![A, n]⟩ : Shape) φ₁) (r : FVec Ideal (⟨2, ![n, B]⟩ : Shape) φ₂) (p : Fin A) (q : Fin B) :
    matmul d prec l r (constant (⟨2, ![A, B]⟩ : Shape) .f32 0x00000000#32) (ix2 p q)
      = ∑ i : Fin n, l (ix2 p i) * r (ix2 i q) := by
  show FloatOps.matmul d prec l r (constant (⟨2, ![A, B]⟩ : Shape) .f32 0x00000000#32) (ix2 p q) = _
  rw [Ideal.matmul_constant_zero_apply, sum_contr d hd.lc n rfl]
  exact Finset.sum_congr rfl fun i _ => by rw [lhsIdx_eq hd, rhsIdx_eq hd]

/-- The host's product, at (p, q). -/
theorem dotGeneral_ix2 {φ₁ φ₂ : FTy} (hd : Plain d) (prec : Option ContractPrecision)
    (l : FVec Ideal (⟨2, ![A, n]⟩ : Shape) φ₁) (r : FVec Ideal (⟨2, ![n, B]⟩ : Shape) φ₂) (p : Fin A) (q : Fin B) :
    Host.dotGeneral d prec l r (ix2 p q) = ∑ i : Fin n, l (ix2 p i) * r (ix2 i q) := by
  show FloatOps.dotGeneral d prec _ l r (ix2 p q) = _
  rw [Ideal.dotGeneral_apply, sum_contr d hd.lc n rfl]
  exact Finset.sum_congr rfl fun i _ => by rw [lhsIdx_eq hd, rhsIdx_eq hd]

end Cert.Lib.Rows

end
-- ==== Proof.KPayMlp.lean ====
/-
  The two perceptrons the kernel bodies compute, at the exact instance, as the specification's perceptron of the blocks
  they load. A change of float format is the identity here; the accelerator's matrix product into a zero accumulator is
  the plain sum of products; a one-row bias block broadcast down the rows adds the bias entry of the column.
-/
import proofs.«139653_j38843684225221_1_alg».proof.Proof.Gen.KernelIdeal.Skeleton
import proofs.«139653_j38843684225221_1_alg».proof.Proof.Spec
import proofs.«139653_j38843684225221_1_alg».proof.Proof.LibRows
import Idealize.ShloMosaic.Lib.Pipeline.Value
import Idealize.ShloMosaic.Lib.ValueLayout

noncomputable section

open scoped BigOperators
open Idealize.ShloMosaic Idealize.ShloMosaic.TcCoe Idealize.ShloMosaic.ValueIdx Idealize.SL.Sem

namespace Cert.KernelIdeal.Hand

open Cert.KernelIdeal Cert.KernelIdeal.Gen Cert.Spec

/-- Two dense layers with the positive part between them, as the accelerator computes them (operands narrowed, products
    into a zero accumulator, one-row bias blocks broadcast down the rows), is the specification's perceptron. -/
private theorem twoLayers_eq_mlp {N a b c : Nat} {φ : FTy}
    (d₁ : DotDims (⟨2, ![N, a]⟩ : Shape) (⟨2, ![a, b]⟩ : Shape) (⟨2, ![N, b]⟩ : Shape)) (hd₁ : Cert.Lib.Rows.Plain d₁)
    (d₂ : DotDims (⟨2, ![N, b]⟩ : Shape) (⟨2, ![b, c]⟩ : Shape) (⟨2, ![N, c]⟩ : Shape)) (hd₂ : Cert.Lib.Rows.Plain d₂)
    (hlt : FTy.bits .bf16 < FTy.bits .f32)
    (hs₁ : (⟨2, ![1, b]⟩ : Shape).ShapeCasts ⟨2, ![1, b]⟩) (hb₁ : (⟨2, ![1, b]⟩ : Shape).Broadcasts ⟨2, ![N, b]⟩)
    (hs₂ : (⟨2, ![1, c]⟩ : Shape).ShapeCasts ⟨2, ![1, c]⟩) (hb₂ : (⟨2, ![1, c]⟩ : Shape).Broadcasts ⟨2, ![N, c]⟩)
    (z : FVec Ideal (⟨2, ![N, a]⟩ : Shape) φ) (w₁ : Vec Ideal (⟨2, ![a, b]⟩ : Shape) .f32)
    (β₁ : Vec Ideal (⟨2, ![1, b]⟩ : Shape) .f32) (w₂ : Vec Ideal (⟨2, ![b, c]⟩ : Shape) .f32)
    (β₂ : Vec Ideal (⟨2, ![1, c]⟩ : Shape) .f32) :
    addf (F := Ideal)
        (matmul d₂ none
          (truncf .bf16
            (maximumf
              (addf (matmul d₁ none z (truncf .bf16 w₁ hlt) (constant (⟨2, ![N, b]⟩ : Shape) .f32 0x00000000#32))
                (broadcastTo (⟨2, ![N, b]⟩ : Shape) (shapeCast (⟨2, ![1, b]⟩ : Shape) β₁ hs₁) hb₁))
              (broadcast (⟨2, ![N, b]⟩ : Shape) (Scalar.ofBits .f32 0x00000000#32)))
            hlt)
          (truncf .bf16 w₂ hlt) (constant (⟨2, ![N, c]⟩ : Shape) .f32 0x00000000#32))
        (broadcastTo (⟨2, ![N, c]⟩ : Shape) (shapeCast (⟨2, ![1, c]⟩ : Shape) β₂ hs₂) hb₂)
      = mlp (N := N) (a := a) (b := b) (c := c) z w₁ (flat (a := b) β₁) w₂ (flat (a := c) β₂) := by
  funext i
  obtain ⟨p, q, rfl⟩ : ∃ (p : Fin N) (q : Fin c), i = ix2 p q := ⟨i 0, i 1, eq_ix2 i⟩
  rw [shapeCast_self β₁ hs₁, shapeCast_self β₂ hs₂, addf_apply, Cert.Lib.Rows.matmul_zero_ix2 hd₂,
    broadcastTo_1b_ab_apply]
  show _ = (∑ k : Fin b, max (dense z w₁ (flat β₁) p k) 0 * w₂ (ix2 k q)) + β₂ (ix2 (0 : Fin 1) q)
  congr 1
  refine Finset.sum_congr rfl fun k _ => ?_
  rw [truncf_apply, truncf_apply, maximumf_apply, addf_apply, broadcast_apply, Cert.Lib.Rows.matmul_zero_ix2 hd₁,
    broadcastTo_1b_ab_apply]
  have zero_bits : (FloatOps.ofBits (F := Ideal) .f32 0x00000000#32) = (0 : EReal) := Ideal.ofBits_zero_f32
  rw [zero_bits]
  rfl

/-- The edge kernel's stored block is the perceptron of its loaded blocks. -/
theorem pay_edge (x0 : Vec Ideal S16000x128 .f32) (x1 : Vec Ideal S128x128 .f32) (x2 : Vec Ideal S1x128 .f32)
    (x3 : Vec Ideal S128x64 .f32) (x4 : Vec Ideal S1x64 .f32) :
    k0_pay1 (F := Ideal) x0 x1 x2 x3 x4 = mlp (N := 16000) (a := 128) (b := 128) (c := 64) x0 x1 (flat (a := 128) x2) x3 (flat (a := 64) x4) := by
  unfold k0_pay1
  rw [shapeCast_self x0]
  exact twoLayers_eq_mlp _ ⟨rfl, rfl, rfl, rfl, rfl, rfl⟩ _ ⟨rfl, rfl, rfl, rfl, rfl, rfl⟩ _ _ _ _ _
    (truncf .bf16 x0 bitsLt_bf16_f32) x1 x2 x3 x4

/-- The node kernel's output layer pair is the perceptron of the (narrowed) hidden block it is given. -/
theorem pay_outLayers (h : FVec Ideal S5000x64 .bf16) (v39 : Vec Ideal S64x128 .f32) (v42 : Vec Ideal S1x128 .f32)
    (v49 : Vec Ideal S128x32 .f32) (v52 : Vec Ideal S1x32 .f32) :
    k1_pay1 (F := Ideal) h v39 v42 v49 v52 = mlp (N := 5000) (a := 64) (b := 128) (c := 32) h v39 (flat (a := 128) v42) v49 (flat (a := 32) v52) := by
  unfold k1_pay1
  exact twoLayers_eq_mlp _ ⟨rfl, rfl, rfl, rfl, rfl, rfl⟩ _ ⟨rfl, rfl, rfl, rfl, rfl, rfl⟩ _ _ _ _ _ h v39 v42 v49 v52

end Cert.KernelIdeal.Hand

end
-- ==== Proof.KPayLstm.lean ====
/-
  The LSTM cell step the node kernel's body computes, at the exact instance, as the specification's functions of the
  blocks it loads: the four gates' pre-activations are one [5000, 256] array (the concatenated input rows against the
  transposed input weights, plus the hidden rows against the transposed hidden weights, plus the two biases), cut into
  four blocks of 64 columns.
-/
import proofs.«139653_j38843684225221_1_alg».proof.Proof.Gen.KernelIdeal.Skeleton
import proofs.«139653_j38843684225221_1_alg».proof.Proof.Spec
import proofs.«139653_j38843684225221_1_alg».proof.Proof.LibRows
import Idealize.ShloMosaic.Lib.Pipeline.Value
import Idealize.ShloMosaic.Lib.ValueLayout

noncomputable section

open scoped BigOperators
open Idealize.ShloMosaic Idealize.ShloMosaic.TcCoe Idealize.ShloMosaic.ValueIdx Idealize.SL.Sem

namespace Cert.KernelIdeal.Hand

open Cert.KernelIdeal Cert.KernelIdeal.Gen Cert.Spec

/-- Two arrays of 64 columns joined along the columns read, at (r, l), the first below column 64 and the second,
    64 columns back, from there on. -/
theorem concatenate_sideBySide (x y : Vec Ideal S5000x64 .f32)
    (h : Shape.Concatenates [S5000x64, S5000x64] S5000x128 1) (r : Fin 5000) (l : Fin 128) :
    concatenate S5000x128 1 [⟨S5000x64, x⟩, ⟨S5000x64, y⟩] h (ix2 r l) = sideBySide (N := 5000) x y (ix2 r l) := by
  unfold sideBySide
  by_cases hl : l.val < 64
  · rw [dif_pos (show ((ix2 r l : S5000x128.Idx) 1).val < 64 from hl)]
    exact concatenate_pair_apply_left (1 : Fin 2) x y h (ix2 r l) rfl (ix2 r ⟨l.val, hl⟩)
      (fun b => match b with | ⟨0, _⟩ => rfl | ⟨1, _⟩ => rfl)
  · rw [dif_neg (show ¬ ((ix2 r l : S5000x128.Idx) 1).val < 64 from hl)]
    exact concatenate_pair_apply_right (1 : Fin 2) x y h (ix2 r l) rfl rfl
      (ix2 r ⟨l.val - 64, by have := l.isLt; omega⟩)
      (fun b hb => match b, hb with | ⟨0, _⟩, _ => rfl | ⟨1, _⟩, hb => absurd rfl hb)
      (by show l.val - 64 + 64 = l.val; omega)

/-- The gates' pre-activation array at (r, q). -/
theorem pay_gates (v0 v1 v3 : Vec Ideal S5000x64 .f32) (v7 : Vec Ideal S128x256 .f32) (v12 : Vec Ideal S64x256 .f32)
    (v17 v21 : Vec Ideal S1x256 .f32) (r : Fin 5000) (q : Fin 256) :
    k1_pay2 (F := Ideal) v0 v1 v3 v7 v12 v17 v21 (ix2 r q)
      = gates (N := 5000) (sideBySide (N := 5000) v0 v1) v3 v7 v12 (flat (a := 256) v17) (flat (a := 256) v21) r q := by
  unfold k1_pay2 gates
  rw [addf_apply, addf_apply, addf_apply]
  rw [shapeCast_self v1, shapeCast_self v7, shapeCast_self v12, shapeCast_self v17, shapeCast_self v21]
  rw [broadcastTo_1b_ab_apply, broadcastTo_1b_ab_apply]
  rw [Cert.Lib.Rows.matmul_zero_ix2 (d := dot_S5000x128_S128x256_S5000x256_1_0_0_1_n_n) (hd := ⟨rfl, rfl, rfl, rfl, rfl, rfl⟩),
    Cert.Lib.Rows.matmul_zero_ix2 (d := dot_S5000x64_S64x256_S5000x256_1_0_0_1_n_n) (hd := ⟨rfl, rfl, rfl, rfl, rfl, rfl⟩)]
  simp only [truncf_apply]
  refine congrArg₂ (· + ·) (congrArg₂ (· + ·) (congrArg₂ (· + ·) ?_ rfl) rfl) rfl
  exact Finset.sum_congr rfl fun l _ => by rw [concatenate_sideBySide]

/-- The logistic function of an array, read at an index, is the logistic function of the entry there. -/
theorem logistic_apply {s : Shape} {φ : FTy} (x : FVec Ideal s φ) (i : s.Idx) :
    logistic x i = Ideal.logistic (x i) := rfl

/-- The hyperbolic tangent of an array, read at an index, is the hyperbolic tangent of the entry there. -/
theorem tanh_apply {s : Shape} {φ : FTy} (x : FVec Ideal s φ) (i : s.Idx) : tanh x i = Ideal.tanh (x i) := rfl

/-- The 64 columns of the gates' array from column o = 64 s on are gate block s: at (r, j), the pre-activation of
    column gcol s j. -/
theorem gates_block (v0 v1 v3 : Vec Ideal S5000x64 .f32) (v7 : Vec Ideal S128x256 .f32) (v12 : Vec Ideal S64x256 .f32)
    (v17 v21 : Vec Ideal S1x256 .f32) (o : Nat) (h : S5000x256.Slices ![0, o] S5000x64) (s : Fin 4)
    (ho : o = 64 * s.val) (r : Fin 5000) (j : Fin 64) :
    extractStridedSlice S5000x64 ![0, o] (k1_pay2 (F := Ideal) v0 v1 v3 v7 v12 v17 v21) h (ix2 r j)
      = gates (N := 5000) (sideBySide (N := 5000) v0 v1) v3 v7 v12 (flat (a := 256) v17) (flat (a := 256) v21) r
          (gcol s j) := by
  subst ho
  rw [slice2_axis1_eq, pay_gates]
  rfl

/-- The node kernel's new cell state. -/
theorem pay_cell (v0 v1 v3 v4 : Vec Ideal S5000x64 .f32) (v7 : Vec Ideal S128x256 .f32) (v12 : Vec Ideal S64x256 .f32)
    (v17 v21 : Vec Ideal S1x256 .f32) :
    k1_pay3 (F := Ideal) v0 v1 v3 v4 v7 v12 v17 v21
      = cellNew (N := 5000) (sideBySide (N := 5000) v0 v1) v3 v4 v7 v12 (flat (a := 256) v17) (flat (a := 256) v21) := by
  funext i
  obtain ⟨r, j, rfl⟩ : ∃ (r : Fin 5000) (j : Fin 64), i = ix2 r j := ⟨i 0, i 1, eq_ix2 i⟩
  unfold k1_pay3 cellNew
  rw [addf_apply, mulf_apply, mulf_apply, logistic_apply, logistic_apply, tanh_apply,
    gates_block v0 v1 v3 v7 v12 v17 v21 64 _ 1 rfl, gates_block v0 v1 v3 v7 v12 v17 v21 0 _ 0 rfl,
    gates_block v0 v1 v3 v7 v12 v17 v21 128 _ 2 rfl]

/-- The node kernel's new hidden state. -/
theorem pay_hidden (v0 v1 v3 v4 : Vec Ideal S5000x64 .f32) (v7 : Vec Ideal S128x256 .f32) (v12 : Vec Ideal S64x256 .f32)
    (v17 v21 : Vec Ideal S1x256 .f32) :
    k1_pay4 (F := Ideal) v0 v1 v3 v4 v7 v12 v17 v21
      = hiddenNew (N := 5000) (sideBySide (N := 5000) v0 v1) v3 v4 v7 v12 (flat (a := 256) v17) (flat (a := 256) v21) := by
  funext i
  obtain ⟨r, j, rfl⟩ : ∃ (r : Fin 5000) (j : Fin 64), i = ix2 r j := ⟨i 0, i 1, eq_ix2 i⟩
  unfold k1_pay4 hiddenNew
  rw [mulf_apply, logistic_apply, tanh_apply, pay_cell, gates_block v0 v1 v3 v7 v12 v17 v21 192 _ 3 rfl]

end Cert.KernelIdeal.Hand

end
-- ==== Proof.KPay.lean ====
/-
  What the two kernel bodies store, at the exact instance, as the specification's functions of the blocks they load
  (the perceptrons and the LSTM step are read in their own modules; here the node kernel's output is put together: the
  perceptron of the new hidden state, whose narrowing to a shorter float format is the identity).
-/
import proofs.«139653_j38843684225221_1_alg».proof.Proof.Gen.KernelIdeal.Skeleton
import proofs.«139653_j38843684225221_1_alg».proof.Proof.Spec
import proofs.«139653_j38843684225221_1_alg».proof.Proof.LibRows
import proofs.«139653_j38843684225221_1_alg».proof.Proof.KPayMlp
import proofs.«139653_j38843684225221_1_alg».proof.Proof.KPayLstm
import Idealize.ShloMosaic.Lib.Pipeline.Value
import Idealize.ShloMosaic.Lib.ValueLayout

noncomputable section

open scoped BigOperators
open Idealize.ShloMosaic Idealize.ShloMosaic.TcCoe Idealize.ShloMosaic.ValueIdx Idealize.SL.Sem

namespace Cert.KernelIdeal.Hand

open Cert.KernelIdeal Cert.KernelIdeal.Gen Cert.Spec

/-- The node kernel's output: the perceptron of the new hidden state. -/
theorem pay_out (v0 v1 v3 v4 : Vec Ideal S5000x64 .f32) (v7 : Vec Ideal S128x256 .f32) (v12 : Vec Ideal S64x256 .f32)
    (v17 v21 : Vec Ideal S1x256 .f32) (v39 : Vec Ideal S64x128 .f32) (v42 : Vec Ideal S1x128 .f32)
    (v49 : Vec Ideal S128x32 .f32) (v52 : Vec Ideal S1x32 .f32) :
    k1_pay1 (F := Ideal) (k1_pay5 v0 v1 v3 v4 v7 v12 v17 v21) v39 v42 v49 v52
      = mlp (N := 5000) (a := 64) (b := 128) (c := 32)
          (hiddenNew (N := 5000) (sideBySide (N := 5000) v0 v1) v3 v4 v7 v12 (flat (a := 256) v17) (flat (a := 256) v21))
          v39 (flat (a := 128) v42) v49 (flat (a := 32) v52) := by
  rw [pay_outLayers, ← pay_hidden]
  rfl

end Cert.KernelIdeal.Hand

end
-- ==== Proof.KBlocks.lean ====
/-
  From the blocks each grid point writes back to the whole result arrays, for either kernel region entered at any
  buffer contents.

  Grid point t of the edge region handles rows 16000 t … 16000 t + 15999 of the edge arrays; grid point t of the node
  region handles rows 5000 t … 5000 t + 4999 of the node arrays; the weight and bias windows are whole arrays at every
  point. The specification's functions work row by row, so the block a point writes back is the block of the
  specification's whole-array function, and the blocks tile the array.
-/
import proofs.«139653_j38843684225221_1_alg».proof.Proof.Gen.KernelIdeal.Frame
import proofs.«139653_j38843684225221_1_alg».proof.Proof.KPay
import Idealize.ShloMosaic.Lib.Pipeline.Value

noncomputable section

open scoped BigOperators
open Idealize.ShloMosaic Idealize.ShloMosaic.TcCoe Idealize.ShloMosaic.ValueIdx Idealize.SL.Sem

open Idealize.ShloMosaic.Pipeline (Dat)

namespace Cert.KernelIdeal.Hand

open Cert.KernelIdeal Cert.KernelIdeal.Gen Cert.Spec

variable (V : (c : Dev nD) → (b : Ref sig .tc) → Buf (Elt Ideal) ((c : Thread nD τ).loc b))

/-- The rows the node region's perceptrons and cell read, at region entry: the node input beside the summed messages. -/
abbrev nodeIn (c : Dev nD) : Mat 50000 128 := sideBySide (N := 50000) (V c main_arg0) (V c main_v20)

namespace Blocks

/-- The zero offsets of a whole-buffer load or store, as a constant function. -/
theorem hz : (![0, 0] : Fin 2 → Nat) = fun _ => 0 := funext fun a => by fin_cases a <;> rfl

/-! ## The edge region -/

/-- The edge region's index maps over its 100 grid points: the edge input and result windows' block index at grid
    point t is (t, 0); each weight or bias window's block index is (0, 0). -/
theorem idx_edge : ∀ t : Fin cfg0.N,
    (win0_0.index t (0 : Fin 2) = t.val ∧ win0_0.index t (1 : Fin 2) = 0)
    ∧ (win0_5.index t (0 : Fin 2) = t.val ∧ win0_5.index t (1 : Fin 2) = 0)
    ∧ (∀ a, win0_1.index t a = 0) ∧ (∀ a, win0_2.index t a = 0) ∧ (∀ a, win0_3.index t a = 0) ∧ (∀ a, win0_4.index t a = 0) :=
  (by decide +kernel : ∀ t : Fin grid0.N, _)

/-- The edge region's grid has 100 points. -/
theorem N0 : cfg0.N = 100 := by decide

/-- The edge input window's block at grid point t is rows 16000 t … 16000 t + 15999 of the edge input array. -/
theorem edge_in_rows (c : Dev nD) (t : Fin cfg0.N) (h : 16000 * t.val + 16000 ≤ 1600000) :
    iblk0 (F := Ideal) V c 0 t = rowsFrom (N := 1600000) (M := 16000) (K := 128) (16000 * t.val) h (V c main_v14) := by
  obtain ⟨⟨e0, e1⟩, -⟩ := idx_edge t
  funext j
  unfold iblk0
  rw [View.read_apply]
  show V c main_v14 (((cfg0.win 0).blk t).view.emb j) = V c main_v14 _
  congr 1
  funext a
  apply Fin.ext
  match a with
  | ⟨0, _⟩ => show win0_0.index t (0 : Fin 2) * 16000 + 1 * (j 0).val = 16000 * t.val + (j 0).val; rw [e0]; omega
  | ⟨1, _⟩ => show win0_0.index t (1 : Fin 2) * 128 + 1 * (j 1).val = (j 1).val; rw [e1]; omega

/-- Each weight or bias window's block at any grid point is the whole array. -/
theorem edge_w1 (c : Dev nD) (t : Fin cfg0.N) : iblk0 (F := Ideal) V c 1 t = V c main_arg6 := by
  funext j
  unfold iblk0
  rw [View.read_apply]
  show V c main_arg6 (((cfg0.win 1).blk t).view.emb j) = V c main_arg6 j
  exact congrArg _ (funext fun a => Fin.ext (Pipeline.Window.rect_emb_val_of_index_zero win0_1 t a ((idx_edge t).2.2.1 a) j))

theorem edge_w2 (c : Dev nD) (t : Fin cfg0.N) : iblk0 (F := Ideal) V c 2 t = V c main_v15 := by
  funext j
  unfold iblk0
  rw [View.read_apply]
  show V c main_v15 (((cfg0.win 2).blk t).view.emb j) = V c main_v15 j
  exact congrArg _ (funext fun a => Fin.ext (Pipeline.Window.rect_emb_val_of_index_zero win0_2 t a ((idx_edge t).2.2.2.1 a) j))

theorem edge_w3 (c : Dev nD) (t : Fin cfg0.N) : iblk0 (F := Ideal) V c 3 t = V c main_arg8 := by
  funext j
  unfold iblk0
  rw [View.read_apply]
  show V c main_arg8 (((cfg0.win 3).blk t).view.emb j) = V c main_arg8 j
  exact congrArg _ (funext fun a => Fin.ext (Pipeline.Window.rect_emb_val_of_index_zero win0_3 t a ((idx_edge t).2.2.2.2.1 a) j))

theorem edge_w4 (c : Dev nD) (t : Fin cfg0.N) : iblk0 (F := Ideal) V c 4 t = V c main_v16 := by
  funext j
  unfold iblk0
  rw [View.read_apply]
  show V c main_v16 (((cfg0.win 4).blk t).view.emb j) = V c main_v16 j
  exact congrArg _ (funext fun a => Fin.ext (Pipeline.Window.rect_emb_val_of_index_zero win0_4 t a ((idx_edge t).2.2.2.2.2 a) j))

/-- A block of the edge result array is a row block. -/
theorem edge_out_rows (t : Fin cfg0.N) (h : 16000 * t.val + 16000 ≤ 1600000) (G : Mat 1600000 64) :
    ((cfg0.win 5).blk t).view.read (Elt Ideal) G = rowsFrom (N := 1600000) (M := 16000) (K := 64) (16000 * t.val) h G := by
  obtain ⟨-, ⟨e0, e1⟩, -⟩ := idx_edge t
  funext j
  rw [View.read_apply]
  show G (((cfg0.win 5).blk t).view.emb j) = G _
  congr 1
  funext a
  apply Fin.ext
  match a with
  | ⟨0, _⟩ => show win0_5.index t (0 : Fin 2) * 16000 + 1 * (j 0).val = 16000 * t.val + (j 0).val; rw [e0]; omega
  | ⟨1, _⟩ => show win0_5.index t (1 : Fin 2) * 64 + 1 * (j 1).val = (j 1).val; rw [e1]; omega

/-- What grid point t of the edge region writes back is its row block of the specification's perceptron of the whole
    arrays. -/
theorem edge_flushed (c : Dev nD) (t : Fin cfg0.N) :
    (dat0 (F := Ideal) V c).flushed 5 t = ((cfg0.win 5).blk t).view.read (Elt Ideal)
      (mlp (N := 1600000) (a := 128) (b := 128) (c := 64) (V c main_v14) (V c main_arg6) (flat (a := 128) (V c main_v15))
          (V c main_arg8) (flat (a := 64) (V c main_v16))) := by
  have h : 16000 * t.val + 16000 ≤ 1600000 := by have := lt_of_lt_of_eq t.isLt N0; omega
  show (cfg0.win 5).cut (grid0.coords t) ((dat0 V c).after 5 t) = _
  rw [after0_5]
  unfold out0_5
  rw [View.canon_unit_zero hz]
  simp only [View.ld_unit_zero (S := S16000x128) hz, View.ld_unit_zero (S := S128x128) hz, View.ld_unit_zero (S := S1x128) hz,
    View.ld_unit_zero (S := S128x64) hz, View.ld_unit_zero (S := S1x64) hz]
  rw [pay_edge, edge_in_rows V c t h, edge_w1, edge_w2, edge_w3, edge_w4, edge_out_rows t h, mlp_rowsFrom]
  rfl

/-- An index of the edge result array lies in the block that grid point t writes back exactly when each of its
    coordinates lies in that block's range on its axis. -/
theorem edge_mem_blk (t : Fin cfg0.N) (i : S1600000x64.Idx) :
    i ∈ ((cfg0.win 5).blk t).view.set ↔ ∀ a : Fin 2, win0_5.index t a * S16000x64.size a ≤ (i a).val
      ∧ (i a).val < win0_5.index t a * S16000x64.size a + S16000x64.size a := by
  show i ∈ ((View.whole main_v17).slice (win0_5.rect t)).set ↔ _
  rw [View.set_slice_whole, Rect.mem_set_unit]
  exact Iff.rfl

/-- Row r of the edge result array is in the block of grid point r / 16000. -/
theorem edge_cover (i : S1600000x64.Idx) :
    ∃ t : Fin cfg0.N, (cfg0.win 5).flush t = true ∧ i ∈ ((cfg0.win 5).blk t).view.set := by
  have hi0 : (i 0).val < 1600000 := (i 0).isLt
  have hi1 : (i 1).val < 64 := (i 1).isLt
  obtain ⟨t, ht⟩ : ∃ t : Fin cfg0.N, t.val = (i 0).val / 16000 := ⟨⟨(i 0).val / 16000, by rw [N0]; omega⟩, rfl⟩
  obtain ⟨-, ⟨e0, e1⟩, -⟩ := idx_edge t
  refine ⟨t, flush0_5 t, ?_⟩
  rw [edge_mem_blk]
  intro a
  match a with
  | ⟨0, _⟩ => show win0_5.index t (0 : Fin 2) * 16000 ≤ (i 0).val ∧ (i 0).val < win0_5.index t (0 : Fin 2) * 16000 + 16000; rw [e0, ht]; omega
  | ⟨1, _⟩ => show win0_5.index t (1 : Fin 2) * 64 ≤ (i 1).val ∧ (i 1).val < win0_5.index t (1 : Fin 2) * 64 + 64; rw [e1]; omega

/-! ## The node region -/

/-- The node region's index maps over its 10 grid points: each node window's block index at grid point t is (t, 0). -/
theorem idx_node_rows : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_12.index t (0 : Fin 2) = t.val ∧ win1_12.index t (1 : Fin 2) = 0)
    ∧ (win1_13.index t (0 : Fin 2) = t.val ∧ win1_13.index t (1 : Fin 2) = 0)
    ∧ (win1_14.index t (0 : Fin 2) = t.val ∧ win1_14.index t (1 : Fin 2) = 0) :=
  (by decide +kernel : ∀ t : Fin grid1.N, _)

/-- The node region's index maps over its 10 grid points: each weight or bias window's block index is (0, 0). -/
theorem idx_node_whole : ∀ t : Fin cfg1.N,
    (∀ a, win1_4.index t a = 0) ∧ (∀ a, win1_5.index t a = 0) ∧ (∀ a, win1_6.index t a = 0) ∧ (∀ a, win1_7.index t a = 0) ∧ (∀ a, win1_8.index t a = 0) ∧ (∀ a, win1_9.index t a = 0) ∧ (∀ a, win1_10.index t a = 0) ∧ (∀ a, win1_11.index t a = 0) :=
  (by decide +kernel : ∀ t : Fin grid1.N, _)

/-- The node region's grid has 10 points. -/
theorem N1 : cfg1.N = 10 := by decide

/-- Each node input window's block at grid point t is rows 5000 t … 5000 t + 4999 of its array. -/
theorem node_in0_rows (c : Dev nD) (t : Fin cfg1.N) (h : 5000 * t.val + 5000 ≤ 50000) :
    iblk1 (F := Ideal) V c 0 t = rowsFrom (N := 50000) (M := 5000) (K := 64) (5000 * t.val) h (V c main_arg0) := by
  obtain ⟨⟨e0, e1⟩, -, -, -, -, -, -⟩ := idx_node_rows t
  funext j
  unfold iblk1
  rw [View.read_apply]
  show V c main_arg0 (((cfg1.win 0).blk t).view.emb j) = V c main_arg0 _
  congr 1
  funext a
  apply Fin.ext
  match a with
  | ⟨0, _⟩ => show win1_0.index t (0 : Fin 2) * 5000 + 1 * (j 0).val = 5000 * t.val + (j 0).val; rw [e0]; omega
  | ⟨1, _⟩ => show win1_0.index t (1 : Fin 2) * 64 + 1 * (j 1).val = (j 1).val; rw [e1]; omega

theorem node_in1_rows (c : Dev nD) (t : Fin cfg1.N) (h : 5000 * t.val + 5000 ≤ 50000) :
    iblk1 (F := Ideal) V c 1 t = rowsFrom (N := 50000) (M := 5000) (K := 64) (5000 * t.val) h (V c main_v20) := by
  obtain ⟨-, ⟨e0, e1⟩, -, -, -, -, -⟩ := idx_node_rows t
  funext j
  unfold iblk1
  rw [View.read_apply]
  show V c main_v20 (((cfg1.win 1).blk t).view.emb j) = V c main_v20 _
  congr 1
  funext a
  apply Fin.ext
  match a with
  | ⟨0, _⟩ => show win1_1.index t (0 : Fin 2) * 5000 + 1 * (j 0).val = 5000 * t.val + (j 0).val; rw [e0]; omega
  | ⟨1, _⟩ => show win1_1.index t (1 : Fin 2) * 64 + 1 * (j 1).val = (j 1).val; rw [e1]; omega

theorem node_in2_rows (c : Dev nD) (t : Fin cfg1.N) (h : 5000 * t.val + 5000 ≤ 50000) :
    iblk1 (F := Ideal) V c 2 t = rowsFrom (N := 50000) (M := 5000) (K := 64) (5000 * t.val) h (V c main_arg2) := by
  obtain ⟨-, -, ⟨e0, e1⟩, -, -, -, -⟩ := idx_node_rows t
  funext j
  unfold iblk1
  rw [View.read_apply]
  show V c main_arg2 (((cfg1.win 2).blk t).view.emb j) = V c main_arg2 _
  congr 1
  funext a
  apply Fin.ext
  match a with
  | ⟨0, _⟩ => show win1_2.index t (0 : Fin 2) * 5000 + 1 * (j 0).val = 5000 * t.val + (j 0).val; rw [e0]; omega
  | ⟨1, _⟩ => show win1_2.index t (1 : Fin 2) * 64 + 1 * (j 1).val = (j 1).val; rw [e1]; omega

theorem node_in3_rows (c : Dev nD) (t : Fin cfg1.N) (h : 5000 * t.val + 5000 ≤ 50000) :
    iblk1 (F := Ideal) V c 3 t = rowsFrom (N := 50000) (M := 5000) (K := 64) (5000 * t.val) h (V c main_arg3) := by
  obtain ⟨-, -, -, ⟨e0, e1⟩, -, -, -⟩ := idx_node_rows t
  funext j
  unfold iblk1
  rw [View.read_apply]
  show V c main_arg3 (((cfg1.win 3).blk t).view.emb j) = V c main_arg3 _
  congr 1
  funext a
  apply Fin.ext
  match a with
  | ⟨0, _⟩ => show win1_3.index t (0 : Fin 2) * 5000 + 1 * (j 0).val = 5000 * t.val + (j 0).val; rw [e0]; omega
  | ⟨1, _⟩ => show win1_3.index t (1 : Fin 2) * 64 + 1 * (j 1).val = (j 1).val; rw [e1]; omega

/-- Each weight or bias window's block at any grid point is the whole array. -/
theorem node_w4 (c : Dev nD) (t : Fin cfg1.N) : iblk1 (F := Ideal) V c 4 t = V c main_v21 := by
  funext j
  unfold iblk1
  rw [View.read_apply]
  show V c main_v21 (((cfg1.win 4).blk t).view.emb j) = V c main_v21 j
  exact congrArg _ (funext fun a => Fin.ext (Pipeline.Window.rect_emb_val_of_index_zero win1_4 t a ((idx_node_whole t).1 a) j))

theorem node_w5 (c : Dev nD) (t : Fin cfg1.N) : iblk1 (F := Ideal) V c 5 t = V c main_v22 := by
  funext j
  unfold iblk1
  rw [View.read_apply]
  show V c main_v22 (((cfg1.win 5).blk t).view.emb j) = V c main_v22 j
  exact congrArg _ (funext fun a => Fin.ext (Pipeline.Window.rect_emb_val_of_index_zero win1_5 t a ((idx_node_whole t).2.1 a) j))

theorem node_w6 (c : Dev nD) (t : Fin cfg1.N) : iblk1 (F := Ideal) V c 6 t = V c main_v23 := by
  funext j
  unfold iblk1
  rw [View.read_apply]
  show V c main_v23 (((cfg1.win 6).blk t).view.emb j) = V c main_v23 j
  exact congrArg _ (funext fun a => Fin.ext (Pipeline.Window.rect_emb_val_of_index_zero win1_6 t a ((idx_node_whole t).2.2.1 a) j))

theorem node_w7 (c : Dev nD) (t : Fin cfg1.N) : iblk1 (F := Ideal) V c 7 t = V c main_v24 := by
  funext j
  unfold iblk1
  rw [View.read_apply]
  show V c main_v24 (((cfg1.win 7).blk t).view.emb j) = V c main_v24 j
  exact congrArg _ (funext fun a => Fin.ext (Pipeline.Window.rect_emb_val_of_index_zero win1_7 t a ((idx_node_whole t).2.2.2.1 a) j))

theorem node_w8 (c : Dev nD) (t : Fin cfg1.N) : iblk1 (F := Ideal) V c 8 t = V c main_arg14 := by
  funext j
  unfold iblk1
  rw [View.read_apply]
  show V c main_arg14 (((cfg1.win 8).blk t).view.emb j) = V c main_arg14 j
  exact congrArg _ (funext fun a => Fin.ext (Pipeline.Window.rect_emb_val_of_index_zero win1_8 t a ((idx_node_whole t).2.2.2.2.1 a) j))

theorem node_w9 (c : Dev nD) (t : Fin cfg1.N) : iblk1 (F := Ideal) V c 9 t = V c main_v25 := by
  funext j
  unfold iblk1
  rw [View.read_apply]
  show V c main_v25 (((cfg1.win 9).blk t).view.emb j) = V c main_v25 j
  exact congrArg _ (funext fun a => Fin.ext (Pipeline.Window.rect_emb_val_of_index_zero win1_9 t a ((idx_node_whole t).2.2.2.2.2.1 a) j))

theorem node_w10 (c : Dev nD) (t : Fin cfg1.N) : iblk1 (F := Ideal) V c 10 t = V c main_arg16 := by
  funext j
  unfold iblk1
  rw [View.read_apply]
  show V c main_arg16 (((cfg1.win 10).blk t).view.emb j) = V c main_arg16 j
  exact congrArg _ (funext fun a => Fin.ext (Pipeline.Window.rect_emb_val_of_index_zero win1_10 t a ((idx_node_whole t).2.2.2.2.2.2.1 a) j))

theorem node_w11 (c : Dev nD) (t : Fin cfg1.N) : iblk1 (F := Ideal) V c 11 t = V c main_v26 := by
  funext j
  unfold iblk1
  rw [View.read_apply]
  show V c main_v26 (((cfg1.win 11).blk t).view.emb j) = V c main_v26 j
  exact congrArg _ (funext fun a => Fin.ext (Pipeline.Window.rect_emb_val_of_index_zero win1_11 t a ((idx_node_whole t).2.2.2.2.2.2.2 a) j))

/-- A block of node result array 0 is a row block. -/
theorem node_out12_rows (t : Fin cfg1.N) (h : 5000 * t.val + 5000 ≤ 50000) (G : Mat 50000 32) :
    ((cfg1.win 12).blk t).view.read (Elt Ideal) G = rowsFrom (N := 50000) (M := 5000) (K := 32) (5000 * t.val) h G := by
  obtain ⟨-, -, -, -, ⟨e0, e1⟩, -, -⟩ := idx_node_rows t
  funext j
  rw [View.read_apply]
  show G (((cfg1.win 12).blk t).view.emb j) = G _
  congr 1
  funext a
  apply Fin.ext
  match a with
  | ⟨0, _⟩ => show win1_12.index t (0 : Fin 2) * 5000 + 1 * (j 0).val = 5000 * t.val + (j 0).val; rw [e0]; omega
  | ⟨1, _⟩ => show win1_12.index t (1 : Fin 2) * 32 + 1 * (j 1).val = (j 1).val; rw [e1]; omega

/-- An index of node result array 0 lies in the block that grid point t writes back exactly when each of its
    coordinates lies in that block's range on its axis. -/
theorem node_mem_blk12 (t : Fin cfg1.N) (i : S50000x32.Idx) :
    i ∈ ((cfg1.win 12).blk t).view.set ↔ ∀ a : Fin 2, win1_12.index t a * S5000x32.size a ≤ (i a).val
      ∧ (i a).val < win1_12.index t a * S5000x32.size a + S5000x32.size a := by
  show i ∈ ((View.whole main_v27_0).slice (win1_12.rect t)).set ↔ _
  rw [View.set_slice_whole, Rect.mem_set_unit]
  exact Iff.rfl

/-- Row r of node result array 0 is in the block of grid point r / 5000. -/
theorem node_cover12 (i : S50000x32.Idx) :
    ∃ t : Fin cfg1.N, (cfg1.win 12).flush t = true ∧ i ∈ ((cfg1.win 12).blk t).view.set := by
  have hi0 : (i 0).val < 50000 := (i 0).isLt
  have hi1 : (i 1).val < 32 := (i 1).isLt
  obtain ⟨t, ht⟩ : ∃ t : Fin cfg1.N, t.val = (i 0).val / 5000 := ⟨⟨(i 0).val / 5000, by rw [N1]; omega⟩, rfl⟩
  obtain ⟨-, -, -, -, ⟨e0, e1⟩, -, -⟩ := idx_node_rows t
  refine ⟨t, flush1_12 t, ?_⟩
  rw [node_mem_blk12]
  intro a
  match a with
  | ⟨0, _⟩ => show win1_12.index t (0 : Fin 2) * 5000 ≤ (i 0).val ∧ (i 0).val < win1_12.index t (0 : Fin 2) * 5000 + 5000; rw [e0, ht]; omega
  | ⟨1, _⟩ => show win1_12.index t (1 : Fin 2) * 32 ≤ (i 1).val ∧ (i 1).val < win1_12.index t (1 : Fin 2) * 32 + 32; rw [e1]; omega

/-- A block of node result array 1 is a row block. -/
theorem node_out13_rows (t : Fin cfg1.N) (h : 5000 * t.val + 5000 ≤ 50000) (G : Mat 50000 64) :
    ((cfg1.win 13).blk t).view.read (Elt Ideal) G = rowsFrom (N := 50000) (M := 5000) (K := 64) (5000 * t.val) h G := by
  obtain ⟨-, -, -, -, -, ⟨e0, e1⟩, -⟩ := idx_node_rows t
  funext j
  rw [View.read_apply]
  show G (((cfg1.win 13).blk t).view.emb j) = G _
  congr 1
  funext a
  apply Fin.ext
  match a with
  | ⟨0, _⟩ => show win1_13.index t (0 : Fin 2) * 5000 + 1 * (j 0).val = 5000 * t.val + (j 0).val; rw [e0]; omega
  | ⟨1, _⟩ => show win1_13.index t (1 : Fin 2) * 64 + 1 * (j 1).val = (j 1).val; rw [e1]; omega

/-- An index of node result array 1 lies in the block that grid point t writes back exactly when each of its
    coordinates lies in that block's range on its axis. -/
theorem node_mem_blk13 (t : Fin cfg1.N) (i : S50000x64.Idx) :
    i ∈ ((cfg1.win 13).blk t).view.set ↔ ∀ a : Fin 2, win1_13.index t a * S5000x64.size a ≤ (i a).val
      ∧ (i a).val < win1_13.index t a * S5000x64.size a + S5000x64.size a := by
  show i ∈ ((View.whole main_v27_1).slice (win1_13.rect t)).set ↔ _
  rw [View.set_slice_whole, Rect.mem_set_unit]
  exact Iff.rfl

/-- Row r of node result array 1 is in the block of grid point r / 5000. -/
theorem node_cover13 (i : S50000x64.Idx) :
    ∃ t : Fin cfg1.N, (cfg1.win 13).flush t = true ∧ i ∈ ((cfg1.win 13).blk t).view.set := by
  have hi0 : (i 0).val < 50000 := (i 0).isLt
  have hi1 : (i 1).val < 64 := (i 1).isLt
  obtain ⟨t, ht⟩ : ∃ t : Fin cfg1.N, t.val = (i 0).val / 5000 := ⟨⟨(i 0).val / 5000, by rw [N1]; omega⟩, rfl⟩
  obtain ⟨-, -, -, -, -, ⟨e0, e1⟩, -⟩ := idx_node_rows t
  refine ⟨t, flush1_13 t, ?_⟩
  rw [node_mem_blk13]
  intro a
  match a with
  | ⟨0, _⟩ => show win1_13.index t (0 : Fin 2) * 5000 ≤ (i 0).val ∧ (i 0).val < win1_13.index t (0 : Fin 2) * 5000 + 5000; rw [e0, ht]; omega
  | ⟨1, _⟩ => show win1_13.index t (1 : Fin 2) * 64 ≤ (i 1).val ∧ (i 1).val < win1_13.index t (1 : Fin 2) * 64 + 64; rw [e1]; omega

/-- A block of node result array 2 is a row block. -/
theorem node_out14_rows (t : Fin cfg1.N) (h : 5000 * t.val + 5000 ≤ 50000) (G : Mat 50000 64) :
    ((cfg1.win 14).blk t).view.read (Elt Ideal) G = rowsFrom (N := 50000) (M := 5000) (K := 64) (5000 * t.val) h G := by
  obtain ⟨-, -, -, -, -, -, ⟨e0, e1⟩⟩ := idx_node_rows t
  funext j
  rw [View.read_apply]
  show G (((cfg1.win 14).blk t).view.emb j) = G _
  congr 1
  funext a
  apply Fin.ext
  match a with
  | ⟨0, _⟩ => show win1_14.index t (0 : Fin 2) * 5000 + 1 * (j 0).val = 5000 * t.val + (j 0).val; rw [e0]; omega
  | ⟨1, _⟩ => show win1_14.index t (1 : Fin 2) * 64 + 1 * (j 1).val = (j 1).val; rw [e1]; omega

/-- An index of node result array 2 lies in the block that grid point t writes back exactly when each of its
    coordinates lies in that block's range on its axis. -/
theorem node_mem_blk14 (t : Fin cfg1.N) (i : S50000x64.Idx) :
    i ∈ ((cfg1.win 14).blk t).view.set ↔ ∀ a : Fin 2, win1_14.index t a * S5000x64.size a ≤ (i a).val
      ∧ (i a).val < win1_14.index t a * S5000x64.size a + S5000x64.size a := by
  show i ∈ ((View.whole main_v27_2).slice (win1_14.rect t)).set ↔ _
  rw [View.set_slice_whole, Rect.mem_set_unit]
  exact Iff.rfl

/-- Row r of node result array 2 is in the block of grid point r / 5000. -/
theorem node_cover14 (i : S50000x64.Idx) :
    ∃ t : Fin cfg1.N, (cfg1.win 14).flush t = true ∧ i ∈ ((cfg1.win 14).blk t).view.set := by
  have hi0 : (i 0).val < 50000 := (i 0).isLt
  have hi1 : (i 1).val < 64 := (i 1).isLt
  obtain ⟨t, ht⟩ : ∃ t : Fin cfg1.N, t.val = (i 0).val / 5000 := ⟨⟨(i 0).val / 5000, by rw [N1]; omega⟩, rfl⟩
  obtain ⟨-, -, -, -, -, -, ⟨e0, e1⟩⟩ := idx_node_rows t
  refine ⟨t, flush1_14 t, ?_⟩
  rw [node_mem_blk14]
  intro a
  match a with
  | ⟨0, _⟩ => show win1_14.index t (0 : Fin 2) * 5000 ≤ (i 0).val ∧ (i 0).val < win1_14.index t (0 : Fin 2) * 5000 + 5000; rw [e0, ht]; omega
  | ⟨1, _⟩ => show win1_14.index t (1 : Fin 2) * 64 ≤ (i 1).val ∧ (i 1).val < win1_14.index t (1 : Fin 2) * 64 + 64; rw [e1]; omega

/-- What grid point t of the node region writes back to the cell state array is its row block of the specification's
    new cell state of the whole arrays. -/
theorem node_flushed14 (c : Dev nD) (t : Fin cfg1.N) :
    (dat1 (F := Ideal) V c).flushed 14 t = ((cfg1.win 14).blk t).view.read (Elt Ideal)
      (cellNew (N := 50000) (nodeIn V c) (V c main_arg2) (V c main_arg3) (V c main_v21) (V c main_v22)
          (flat (a := 256) (V c main_v23)) (flat (a := 256) (V c main_v24))) := by
  have h : 5000 * t.val + 5000 ≤ 50000 := by have := lt_of_lt_of_eq t.isLt N1; omega
  show (cfg1.win 14).cut (grid1.coords t) ((dat1 V c).after 14 t) = _
  rw [after1_14]
  unfold out1_14
  rw [View.canon_unit_zero hz]
  simp only [View.ld_unit_zero (S := S5000x64) hz, View.ld_unit_zero (S := S128x256) hz,
    View.ld_unit_zero (S := S64x256) hz, View.ld_unit_zero (S := S1x256) hz]
  rw [pay_cell, node_in0_rows V c t h, node_in1_rows V c t h, node_in2_rows V c t h, node_in3_rows V c t h,
    node_w4, node_w5, node_w6, node_w7,
    node_out14_rows t h]
  rfl

/-- What grid point t of the node region writes back to the hidden state array is its row block of the
    specification's new hidden state of the whole arrays. -/
theorem node_flushed13 (c : Dev nD) (t : Fin cfg1.N) :
    (dat1 (F := Ideal) V c).flushed 13 t = ((cfg1.win 13).blk t).view.read (Elt Ideal)
      (hiddenNew (N := 50000) (nodeIn V c) (V c main_arg2) (V c main_arg3) (V c main_v21) (V c main_v22)
          (flat (a := 256) (V c main_v23)) (flat (a := 256) (V c main_v24))) := by
  have h : 5000 * t.val + 5000 ≤ 50000 := by have := lt_of_lt_of_eq t.isLt N1; omega
  show (cfg1.win 13).cut (grid1.coords t) ((dat1 V c).after 13 t) = _
  rw [after1_13]
  unfold out1_13
  rw [View.canon_unit_zero hz]
  simp only [View.ld_unit_zero (S := S5000x64) hz, View.ld_unit_zero (S := S128x256) hz,
    View.ld_unit_zero (S := S64x256) hz, View.ld_unit_zero (S := S1x256) hz]
  rw [pay_hidden, node_in0_rows V c t h, node_in1_rows V c t h, node_in2_rows V c t h, node_in3_rows V c t h,
    node_w4, node_w5, node_w6, node_w7,
    node_out13_rows t h]
  rfl

/-- What grid point t of the node region writes back to the output array is its row block of the specification's
    perceptron of the new hidden state of the whole arrays. -/
theorem node_flushed12 (c : Dev nD) (t : Fin cfg1.N) :
    (dat1 (F := Ideal) V c).flushed 12 t = ((cfg1.win 12).blk t).view.read (Elt Ideal)
      (mlp (N := 50000) (a := 64) (b := 128) (c := 32)
          (hiddenNew (N := 50000) (nodeIn V c) (V c main_arg2) (V c main_arg3) (V c main_v21) (V c main_v22) (flat (a := 256) (V c main_v23)) (flat (a := 256) (V c main_v24)))
          (V c main_arg14) (flat (a := 128) (V c main_v25)) (V c main_arg16) (flat (a := 32) (V c main_v26))) := by
  have h : 5000 * t.val + 5000 ≤ 50000 := by have := lt_of_lt_of_eq t.isLt N1; omega
  show (cfg1.win 12).cut (grid1.coords t) ((dat1 V c).after 12 t) = _
  rw [after1_12]
  unfold out1_12
  rw [View.canon_unit_zero hz]
  simp only [View.ld_unit_zero (S := S5000x64) hz, View.ld_unit_zero (S := S128x256) hz,
    View.ld_unit_zero (S := S64x256) hz, View.ld_unit_zero (S := S1x256) hz,
    View.ld_unit_zero (S := S64x128) hz, View.ld_unit_zero (S := S1x128) hz, View.ld_unit_zero (S := S128x32) hz,
    View.ld_unit_zero (S := S1x32) hz]
  rw [pay_out, node_in0_rows V c t h, node_in1_rows V c t h, node_in2_rows V c t h, node_in3_rows V c t h,
    node_w4, node_w5, node_w6, node_w7, node_w8, node_w9, node_w10, node_w11,
    node_out12_rows t h]
  rfl

end Blocks

/-- The edge region's result array. -/
theorem region0_arr (c : Dev nD) :
    (dat0 (F := Ideal) V c).arrAt 5 cfg0.N
      = mlp (N := 1600000) (a := 128) (b := 128) (c := 64) (V c main_v14) (V c main_arg6) (flat (a := 128) (V c main_v15))
          (V c main_arg8) (flat (a := 64) (V c main_v16)) :=
  (dat0 (F := Ideal) V c).arrAt_eq_of_cover 5 _ (fun t _ => Blocks.edge_flushed V c t) Blocks.edge_cover

/-- The node region's new cell state array (result 2). -/
theorem region1_cell (c : Dev nD) :
    (dat1 (F := Ideal) V c).arrAt 14 cfg1.N
      = cellNew (N := 50000) (nodeIn V c) (V c main_arg2) (V c main_arg3) (V c main_v21) (V c main_v22)
          (flat (a := 256) (V c main_v23)) (flat (a := 256) (V c main_v24)) :=
  (dat1 (F := Ideal) V c).arrAt_eq_of_cover 14 _ (fun t _ => Blocks.node_flushed14 V c t) Blocks.node_cover14

/-- The node region's new hidden state array (result 1). -/
theorem region1_hidden (c : Dev nD) :
    (dat1 (F := Ideal) V c).arrAt 13 cfg1.N
      = hiddenNew (N := 50000) (nodeIn V c) (V c main_arg2) (V c main_arg3) (V c main_v21) (V c main_v22)
          (flat (a := 256) (V c main_v23)) (flat (a := 256) (V c main_v24)) :=
  (dat1 (F := Ideal) V c).arrAt_eq_of_cover 13 _ (fun t _ => Blocks.node_flushed13 V c t) Blocks.node_cover13

/-- The node region's output array (result 0). -/
theorem region1_out (c : Dev nD) :
    (dat1 (F := Ideal) V c).arrAt 12 cfg1.N
      = mlp (N := 50000) (a := 64) (b := 128) (c := 32)
          (hiddenNew (N := 50000) (nodeIn V c) (V c main_arg2) (V c main_arg3) (V c main_v21) (V c main_v22)
            (flat (a := 256) (V c main_v23)) (flat (a := 256) (V c main_v24)))
          (V c main_arg14) (flat (a := 128) (V c main_v25)) (V c main_arg16) (flat (a := 32) (V c main_v26)) :=
  (dat1 (F := Ideal) V c).arrAt_eq_of_cover 12 _ (fun t _ => Blocks.node_flushed12 V c t) Blocks.node_cover12

end Cert.KernelIdeal.Hand

end
-- ==== Proof.KHost.lean ====
/-
  The kernel program's host operations: what each kernel region finds in the arrays it reads.

  Before the edge region the host gathers the hidden states of every edge's two end points and lays them side by side,
  and views the two bias vectors as one-row arrays. Between the regions it sums the messages into their destination
  nodes (a scatter-add into zeros), transposes the two LSTM weight arrays and views four bias vectors as one-row arrays.
  Argument arrays are read as launched.
-/
import proofs.«139653_j38843684225221_1_alg».proof.Proof.Gen.KernelIdeal.Frame
import proofs.«139653_j38843684225221_1_alg».proof.Proof.Spec
import Idealize.ShloMosaic.Lib.StableHlo.Run
import Idealize.ShloMosaic.Lib.Pipeline.Value
import Idealize.ShloMosaic.Lib.ValueLayout

noncomputable section

open scoped BigOperators
open Idealize.ShloMosaic Idealize.ShloMosaic.TcCoe Idealize.ShloMosaic.ValueIdx Idealize.SL.Sem

namespace Cert.KernelIdeal.Hand

open Cert.KernelIdeal Cert.KernelIdeal.Gen Cert.Spec

/-- The end-point states of every edge side by side: row e holds the hidden state of the edge's source node, then that
    of its destination node (an index below zero counts from the end). -/
def edgeIn (hidden : FVec Ideal S50000x64 .f32) (src dst : IVec S1600000 32) : FVec Ideal S1600000x128 .f32 :=
  concatenate S1600000x128 1
    [⟨S1600000x64, Host.gather gather_S50000x64_S1600000x1_S1600000x64_1_0_n_n_0_1_164 hidden
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 50000#32))) src))⟩,
     ⟨S1600000x64, Host.gather gather_S50000x64_S1600000x1_S1600000x64_1_0_n_n_0_1_164 hidden
        (broadcastInDim S1600000x1 ![0] bcast_S1600000_S1600000x1_0
          (select (cmpi .slt dst (broadcastInDim S1600000 ![] bcast_S_S1600000 (constantI S_ 32 0#32)))
            (addi dst (broadcastInDim S1600000 ![] bcast_S_S1600000 (constantI S_ 32 50000#32))) dst))⟩]
    concatenates_S1600000x64_S1600000x64_S1600000x128_d1

/-- The messages summed into their destination nodes. -/
def segSum (dst : IVec S1600000 32) (msgs : FVec Ideal S1600000x64 .f32) : FVec Ideal S50000x64 .f32 :=
  Host.scatterAdd scatter_S50000x64_S1600000x1_S1600000x64_1_0_0_1
    (broadcastInDim S50000x64 ![] bcast_S_S50000x64 (constant (F := Ideal) S_ .f32 0x00000000#32))
    (broadcastInDim S1600000x1 ![0] bcast_S1600000_S1600000x1_0 dst) msgs

/-- A vector viewed as a one-row array and read back along that row is the vector. -/
theorem flat_oneRowView {a : ℕ} (x : Vct a) (h : (⟨1, ![a]⟩ : Shape).ShapeCasts ⟨2, ![1, a]⟩) :
    flat (shapeCast ⟨2, ![1, a]⟩ x h) = x := by
  funext k
  obtain ⟨q, rfl⟩ : ∃ q : Fin a, k = ix1 q := ⟨k 0, eq_ix1 k⟩
  exact shapeCast_a_1a_apply x h 0 q

variable (m : (ℓ : Loc nD τ sig) → Buf (Elt Ideal) ℓ) (ρ : Dev nD → PrngReg)

/-! ## At the edge region's entry -/

theorem V1_v14 (c : Dev nD) : V1 m ρ c main_v14
    = edgeIn (m ((c : Thread nD τ).loc main_arg1)) (m ((c : Thread nD τ).loc main_arg4)) (m ((c : Thread nD τ).loc main_arg5)) := by
  show StableHlo.after hostOps0 _ (Proc.devRef .tc main_v14) = _
  after_results_simp
  rfl
theorem V1_arg6 (c : Dev nD) : V1 m ρ c main_arg6 = m ((c : Thread nD τ).loc main_arg6) := by
  show StableHlo.after hostOps0 _ (Proc.devRef .tc main_arg6) = _
  after_results_simp
theorem V1_arg8 (c : Dev nD) : V1 m ρ c main_arg8 = m ((c : Thread nD τ).loc main_arg8) := by
  show StableHlo.after hostOps0 _ (Proc.devRef .tc main_arg8) = _
  after_results_simp
/-- A bias vector viewed as a one-row array and read back as a vector is the vector. -/
theorem V1_v15 (c : Dev nD) : flat (a := 128) (V1 m ρ c main_v15) = m ((c : Thread nD τ).loc main_arg7) := by
  have e : V1 m ρ c main_v15 = shapeCast S1x128 (m ((c : Thread nD τ).loc main_arg7)) shapeCasts_S128_S1x128 := by
    show StableHlo.after hostOps0 _ (Proc.devRef .tc main_v15) = _
    after_results_simp
    rfl
  rw [e]
  exact flat_oneRowView _ _
theorem V1_v16 (c : Dev nD) : flat (a := 64) (V1 m ρ c main_v16) = m ((c : Thread nD τ).loc main_arg9) := by
  have e : V1 m ρ c main_v16 = shapeCast S1x64 (m ((c : Thread nD τ).loc main_arg9)) shapeCasts_S64_S1x64 := by
    show StableHlo.after hostOps0 _ (Proc.devRef .tc main_v16) = _
    after_results_simp
    rfl
  rw [e]
  exact flat_oneRowView _ _

/-! ## At the edge region's exit

An argument array is no window array of the edge region and no host operation before it writes one, so at the region's
exit it still holds what was launched; the region's result array holds what the pipeline left there. -/

theorem atEdgeExit_arg0 (c : Dev nD) : W2 m ρ c (Proc.devRef .tc main_arg0) = m ((c : Thread nD τ).loc main_arg0) := by
  rw [W2_of_ne m ρ c main_arg0 (by decide)]
  show StableHlo.after hostOps0 _ (Proc.devRef .tc main_arg0) = _
  after_results_simp
theorem atEdgeExit_arg2 (c : Dev nD) : W2 m ρ c (Proc.devRef .tc main_arg2) = m ((c : Thread nD τ).loc main_arg2) := by
  rw [W2_of_ne m ρ c main_arg2 (by decide)]
  show StableHlo.after hostOps0 _ (Proc.devRef .tc main_arg2) = _
  after_results_simp
theorem atEdgeExit_arg3 (c : Dev nD) : W2 m ρ c (Proc.devRef .tc main_arg3) = m ((c : Thread nD τ).loc main_arg3) := by
  rw [W2_of_ne m ρ c main_arg3 (by decide)]
  show StableHlo.after hostOps0 _ (Proc.devRef .tc main_arg3) = _
  after_results_simp
theorem atEdgeExit_arg5 (c : Dev nD) : W2 m ρ c (Proc.devRef .tc main_arg5) = m ((c : Thread nD τ).loc main_arg5) := by
  rw [W2_of_ne m ρ c main_arg5 (by decide)]
  show StableHlo.after hostOps0 _ (Proc.devRef .tc main_arg5) = _
  after_results_simp
theorem atEdgeExit_arg10 (c : Dev nD) : W2 m ρ c (Proc.devRef .tc main_arg10) = m ((c : Thread nD τ).loc main_arg10) := by
  rw [W2_of_ne m ρ c main_arg10 (by decide)]
  show StableHlo.after hostOps0 _ (Proc.devRef .tc main_arg10) = _
  after_results_simp
theorem atEdgeExit_arg11 (c : Dev nD) : W2 m ρ c (Proc.devRef .tc main_arg11) = m ((c : Thread nD τ).loc main_arg11) := by
  rw [W2_of_ne m ρ c main_arg11 (by decide)]
  show StableHlo.after hostOps0 _ (Proc.devRef .tc main_arg11) = _
  after_results_simp
theorem atEdgeExit_arg12 (c : Dev nD) : W2 m ρ c (Proc.devRef .tc main_arg12) = m ((c : Thread nD τ).loc main_arg12) := by
  rw [W2_of_ne m ρ c main_arg12 (by decide)]
  show StableHlo.after hostOps0 _ (Proc.devRef .tc main_arg12) = _
  after_results_simp
theorem atEdgeExit_arg13 (c : Dev nD) : W2 m ρ c (Proc.devRef .tc main_arg13) = m ((c : Thread nD τ).loc main_arg13) := by
  rw [W2_of_ne m ρ c main_arg13 (by decide)]
  show StableHlo.after hostOps0 _ (Proc.devRef .tc main_arg13) = _
  after_results_simp
theorem atEdgeExit_arg14 (c : Dev nD) : W2 m ρ c (Proc.devRef .tc main_arg14) = m ((c : Thread nD τ).loc main_arg14) := by
  rw [W2_of_ne m ρ c main_arg14 (by decide)]
  show StableHlo.after hostOps0 _ (Proc.devRef .tc main_arg14) = _
  after_results_simp
theorem atEdgeExit_arg15 (c : Dev nD) : W2 m ρ c (Proc.devRef .tc main_arg15) = m ((c : Thread nD τ).loc main_arg15) := by
  rw [W2_of_ne m ρ c main_arg15 (by decide)]
  show StableHlo.after hostOps0 _ (Proc.devRef .tc main_arg15) = _
  after_results_simp
theorem atEdgeExit_arg16 (c : Dev nD) : W2 m ρ c (Proc.devRef .tc main_arg16) = m ((c : Thread nD τ).loc main_arg16) := by
  rw [W2_of_ne m ρ c main_arg16 (by decide)]
  show StableHlo.after hostOps0 _ (Proc.devRef .tc main_arg16) = _
  after_results_simp
theorem atEdgeExit_arg17 (c : Dev nD) : W2 m ρ c (Proc.devRef .tc main_arg17) = m ((c : Thread nD τ).loc main_arg17) := by
  rw [W2_of_ne m ρ c main_arg17 (by decide)]
  show StableHlo.after hostOps0 _ (Proc.devRef .tc main_arg17) = _
  after_results_simp
theorem atEdgeExit_result (c : Dev nD) : W2 m ρ c (Proc.devRef .tc main_v17) = (dat0 (V1 m ρ) c).arrAt 5 cfg0.N :=
  W2_arr m ρ c 5

/-! ## At the node region's entry -/

theorem V3_arg0 (c : Dev nD) : V3 m ρ c main_arg0 = m ((c : Thread nD τ).loc main_arg0) := by
  show StableHlo.after hostOps1 _ (Proc.devRef .tc main_arg0) = _
  after_results_simp
  exact atEdgeExit_arg0 m ρ c
theorem V3_arg2 (c : Dev nD) : V3 m ρ c main_arg2 = m ((c : Thread nD τ).loc main_arg2) := by
  show StableHlo.after hostOps1 _ (Proc.devRef .tc main_arg2) = _
  after_results_simp
  exact atEdgeExit_arg2 m ρ c
theorem V3_arg3 (c : Dev nD) : V3 m ρ c main_arg3 = m ((c : Thread nD τ).loc main_arg3) := by
  show StableHlo.after hostOps1 _ (Proc.devRef .tc main_arg3) = _
  after_results_simp
  exact atEdgeExit_arg3 m ρ c
theorem V3_arg14 (c : Dev nD) : V3 m ρ c main_arg14 = m ((c : Thread nD τ).loc main_arg14) := by
  show StableHlo.after hostOps1 _ (Proc.devRef .tc main_arg14) = _
  after_results_simp
  exact atEdgeExit_arg14 m ρ c
theorem V3_arg16 (c : Dev nD) : V3 m ρ c main_arg16 = m ((c : Thread nD τ).loc main_arg16) := by
  show StableHlo.after hostOps1 _ (Proc.devRef .tc main_arg16) = _
  after_results_simp
  exact atEdgeExit_arg16 m ρ c
/-- The summed messages: the scatter-add of the edge region's result array by the destination indices. -/
theorem V3_v20 (c : Dev nD) : V3 m ρ c main_v20
    = segSum (m ((c : Thread nD τ).loc main_arg5)) ((dat0 (V1 m ρ) c).arrAt 5 cfg0.N) := by
  show StableHlo.after hostOps1 _ (Proc.devRef .tc main_v20) = _
  after_results_simp
  rw [atEdgeExit_arg5 m ρ c, atEdgeExit_result m ρ c]
  rfl
theorem V3_v21 (c : Dev nD) : V3 m ρ c main_v21
    = transpose S128x256 [1, 0] (m ((c : Thread nD τ).loc main_arg10)) transposes_S256x128_S128x256_1_0 := by
  show StableHlo.after hostOps1 _ (Proc.devRef .tc main_v21) = _
  after_results_simp
  rw [atEdgeExit_arg10 m ρ c]
theorem V3_v22 (c : Dev nD) : V3 m ρ c main_v22
    = transpose S64x256 [1, 0] (m ((c : Thread nD τ).loc main_arg11)) transposes_S256x64_S64x256_1_0 := by
  show StableHlo.after hostOps1 _ (Proc.devRef .tc main_v22) = _
  after_results_simp
  rw [atEdgeExit_arg11 m ρ c]
theorem V3_v23 (c : Dev nD) : flat (a := 256) (V3 m ρ c main_v23) = m ((c : Thread nD τ).loc main_arg12) := by
  have e : V3 m ρ c main_v23 = shapeCast S1x256 (m ((c : Thread nD τ).loc main_arg12)) shapeCasts_S256_S1x256 := by
    show StableHlo.after hostOps1 _ (Proc.devRef .tc main_v23) = _
    after_results_simp
    rw [atEdgeExit_arg12 m ρ c]
    rfl
  rw [e]
  exact flat_oneRowView _ _
theorem V3_v24 (c : Dev nD) : flat (a := 256) (V3 m ρ c main_v24) = m ((c : Thread nD τ).loc main_arg13) := by
  have e : V3 m ρ c main_v24 = shapeCast S1x256 (m ((c : Thread nD τ).loc main_arg13)) shapeCasts_S256_S1x256 := by
    show StableHlo.after hostOps1 _ (Proc.devRef .tc main_v24) = _
    after_results_simp
    rw [atEdgeExit_arg13 m ρ c]
    rfl
  rw [e]
  exact flat_oneRowView _ _
theorem V3_v25 (c : Dev nD) : flat (a := 128) (V3 m ρ c main_v25) = m ((c : Thread nD τ).loc main_arg15) := by
  have e : V3 m ρ c main_v25 = shapeCast S1x128 (m ((c : Thread nD τ).loc main_arg15)) shapeCasts_S128_S1x128 := by
    show StableHlo.after hostOps1 _ (Proc.devRef .tc main_v25) = _
    after_results_simp
    rw [atEdgeExit_arg15 m ρ c]
    rfl
  rw [e]
  exact flat_oneRowView _ _
theorem V3_v26 (c : Dev nD) : flat (a := 32) (V3 m ρ c main_v26) = m ((c : Thread nD τ).loc main_arg17) := by
  have e : V3 m ρ c main_v26 = shapeCast S1x32 (m ((c : Thread nD τ).loc main_arg17)) shapeCasts_S32_S1x32 := by
    show StableHlo.after hostOps1 _ (Proc.devRef .tc main_v26) = _
    after_results_simp
    rw [atEdgeExit_arg17 m ρ c]
    rfl
  rw [e]
  exact flat_oneRowView _ _

end Cert.KernelIdeal.Hand

end
-- ==== Proof.KValue.lean ====
/-
  The kernel program's three results as functions of its launched arguments, at the exact instance.

  The edge region leaves the perceptron of the gathered end-point states (the messages); the host sums them into their
  destination nodes; the node region leaves the LSTM step's new cell and hidden states on the node input laid beside
  the summed messages, and the output perceptron of the new hidden state.
-/
import proofs.«139653_j38843684225221_1_alg».proof.Proof.KRun
import proofs.«139653_j38843684225221_1_alg».proof.Proof.KBlocks
import proofs.«139653_j38843684225221_1_alg».proof.Proof.KHost

noncomputable section

open scoped BigOperators
open Idealize.ShloMosaic Idealize.ShloMosaic.TcCoe Idealize.ShloMosaic.ValueIdx Idealize.SL.Sem

namespace Cert.KernelIdeal.Hand

open Cert.KernelIdeal Cert.KernelIdeal.Gen Cert.Spec

/-- The messages, the node region's input rows, and the three results, as functions of the argument arrays. -/
def msgsOf (hidden : FVec Ideal S50000x64 .f32) (src dst : IVec S1600000 32) (fw1 : FVec Ideal S128x128 .f32)
    (fb1 : FVec Ideal S128 .f32) (fw2 : FVec Ideal S128x64 .f32) (fb2 : FVec Ideal S64 .f32) : FVec Ideal S1600000x64 .f32 :=
  mlp (N := 1600000) (a := 128) (b := 128) (c := 64) (edgeIn hidden src dst) fw1 fb1 fw2 fb2

def nodeInOf (x hidden : FVec Ideal S50000x64 .f32) (src dst : IVec S1600000 32) (fw1 : FVec Ideal S128x128 .f32)
    (fb1 : FVec Ideal S128 .f32) (fw2 : FVec Ideal S128x64 .f32) (fb2 : FVec Ideal S64 .f32) : Mat 50000 128 :=
  sideBySide (N := 50000) x (segSum dst (msgsOf hidden src dst fw1 fb1 fw2 fb2))

/-- The two LSTM weight arrays as both programs use them: transposed. -/
abbrev wihT (w : FVec Ideal S256x128 .f32) : FVec Ideal S128x256 .f32 :=
  transpose S128x256 [1, 0] w transposes_S256x128_S128x256_1_0
abbrev whhT (w : FVec Ideal S256x64 .f32) : FVec Ideal S64x256 .f32 :=
  transpose S64x256 [1, 0] w transposes_S256x64_S64x256_1_0

variable (m : (ℓ : Loc nD τ sig) → Buf (Elt Ideal) ℓ) (ρ : Dev nD → PrngReg)

def nodeInK (c : Dev nD) : Mat 50000 128 :=
  nodeInOf (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

def cellK (c : Dev nD) : FVec Ideal S50000x64 .f32 :=
  cellNew (N := 50000) (nodeInK m c) (m ((c : Thread nD τ).loc main_arg2)) (m ((c : Thread nD τ).loc main_arg3))
    (wihT (m ((c : Thread nD τ).loc main_arg10)))
    (whhT (m ((c : Thread nD τ).loc main_arg11))) (m ((c : Thread nD τ).loc main_arg12)) (m ((c : Thread nD τ).loc main_arg13))

def hiddenK (c : Dev nD) : FVec Ideal S50000x64 .f32 :=
  hiddenNew (N := 50000) (nodeInK m c) (m ((c : Thread nD τ).loc main_arg2)) (m ((c : Thread nD τ).loc main_arg3))
    (wihT (m ((c : Thread nD τ).loc main_arg10)))
    (whhT (m ((c : Thread nD τ).loc main_arg11))) (m ((c : Thread nD τ).loc main_arg12)) (m ((c : Thread nD τ).loc main_arg13))

def outK (c : Dev nD) : FVec Ideal S50000x32 .f32 :=
  mlp (N := 50000) (a := 64) (b := 128) (c := 32) (hiddenK m c) (m ((c : Thread nD τ).loc main_arg14)) (m ((c : Thread nD τ).loc main_arg15)) (m ((c : Thread nD τ).loc main_arg16)) (m ((c : Thread nD τ).loc main_arg17))

/-- The node region's input rows at its entry are the node input beside the summed messages of the launched arguments. -/
theorem nodeIn_entry (c : Dev nD) : nodeIn (V3 m ρ) c = nodeInK m c := by
  unfold nodeIn nodeInK nodeInOf msgsOf
  rw [V3_arg0 m ρ c, V3_v20 m ρ c, region0_arr (V1 m ρ) c, V1_v14 m ρ c, V1_arg6 m ρ c, V1_v15 m ρ c, V1_arg8 m ρ c, V1_v16 m ρ c]

theorem W4_cell (c : Dev nD) : W4 m ρ c (Proc.devRef .tc main_v27_2) = cellK m c := by
  refine (W4_arr m ρ c 14).trans ?_
  rw [region1_cell (V3 m ρ) c, nodeIn_entry m ρ c, V3_arg2 m ρ c, V3_arg3 m ρ c, V3_v21 m ρ c, V3_v22 m ρ c, V3_v23 m ρ c, V3_v24 m ρ c]
  rfl

theorem W4_hidden (c : Dev nD) : W4 m ρ c (Proc.devRef .tc main_v27_1) = hiddenK m c := by
  refine (W4_arr m ρ c 13).trans ?_
  rw [region1_hidden (V3 m ρ) c, nodeIn_entry m ρ c, V3_arg2 m ρ c, V3_arg3 m ρ c, V3_v21 m ρ c, V3_v22 m ρ c, V3_v23 m ρ c, V3_v24 m ρ c]
  rfl

theorem W4_out (c : Dev nD) : W4 m ρ c (Proc.devRef .tc main_v27_0) = outK m c := by
  refine (W4_arr m ρ c 12).trans ?_
  rw [region1_out (V3 m ρ) c, nodeIn_entry m ρ c, V3_arg2 m ρ c, V3_arg3 m ρ c, V3_v21 m ρ c, V3_v22 m ρ c, V3_v23 m ρ c, V3_v24 m ρ c,
    V3_arg14 m ρ c, V3_v25 m ρ c, V3_arg16 m ρ c, V3_v26 m ρ c]
  rfl

/-- The run, read: every weakly fair execution terminates with the three results at these functions of the launched
    arguments, and the arguments unchanged. -/
theorem run : θ_run defs (onTc (τ := τ) (main (F := Ideal))) ⟨m, fun _ => 0, ρ⟩ (fun r => ∀ c : Dev nD,
      r.2.mem ((c.tc : Thread nD τ).loc main_v27_0) = outK m c
      ∧ r.2.mem ((c.tc : Thread nD τ).loc main_v27_1) = hiddenK m c
      ∧ r.2.mem ((c.tc : Thread nD τ).loc main_v27_2) = cellK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨(h c).1.trans (W4_out m ρ c), (h c).2.1.trans (W4_hidden m ρ c),
    (h c).2.2.1.trans (W4_cell m ρ c), (h c).2.2.2⟩) (run_vals m ρ)

end Cert.KernelIdeal.Hand

end
-- ==== Proof.RefMlp.lean ====
/-
  The reference program's two perceptrons, at the exact instance, as the specification's perceptron: the host's matrix
  products are plain sums of products, its positive part is the maximum with zero, and a bias vector broadcast down the
  rows adds the bias entry of the column.
-/
import proofs.«139653_j38843684225221_1_alg».proof.Proof.RefStages
import proofs.«139653_j38843684225221_1_alg».proof.Proof.Spec
import proofs.«139653_j38843684225221_1_alg».proof.Proof.LibRows
import Idealize.ShloMosaic.Lib.Pipeline.Value
import Idealize.ShloMosaic.Lib.ValueLayout

noncomputable section

open scoped BigOperators
open Idealize.ShloMosaic Idealize.ShloMosaic.TcCoe Idealize.ShloMosaic.ValueIdx Idealize.SL.Sem

namespace Cert.ReferenceIdeal.Hand

open Cert.ReferenceIdeal Cert.ReferenceIdeal.Read Cert.Spec

variable (x0 x1 x2 x3 : (⟨S50000x64, .f32⟩ : BufTy).Contents (Elt Ideal)) (x4 x5 : (⟨S1600000, .i32⟩ : BufTy).Contents (Elt Ideal))
  (x6 : (⟨S128x128, .f32⟩ : BufTy).Contents (Elt Ideal)) (x7 : (⟨S128, .f32⟩ : BufTy).Contents (Elt Ideal)) (x8 : (⟨S128x64, .f32⟩ : BufTy).Contents (Elt Ideal)) (x9 : (⟨S64, .f32⟩ : BufTy).Contents (Elt Ideal))
  (x10 : (⟨S256x128, .f32⟩ : BufTy).Contents (Elt Ideal)) (x11 : (⟨S256x64, .f32⟩ : BufTy).Contents (Elt Ideal)) (x12 x13 : (⟨S256, .f32⟩ : BufTy).Contents (Elt Ideal))
  (x14 : (⟨S64x128, .f32⟩ : BufTy).Contents (Elt Ideal)) (x15 : (⟨S128, .f32⟩ : BufTy).Contents (Elt Ideal)) (x16 : (⟨S128x32, .f32⟩ : BufTy).Contents (Elt Ideal)) (x17 : (⟨S32, .f32⟩ : BufTy).Contents (Elt Ideal))

/-- The messages: the perceptron of the concatenated end-point states. -/
theorem ref_msgs : val_main_v23 (F := Ideal) x1 x4 x5 x6 x7 x8 x9
    = mlp (N := 1600000) (a := 128) (b := 128) (c := 64) (val_main_v14 (F := Ideal) x1 x4 x5) x6 x7 x8 x9 := by
  -- entry (p, q): the second product's sum over k plus the bias entry q; inside, at (p, k), the positive part of the
  -- first product's sum over l plus the bias entry k
  funext i
  obtain ⟨p, q, rfl⟩ : ∃ (p : Fin 1600000) (q : Fin 64), i = ix2 p q := ⟨i 0, i 1, eq_ix2 i⟩
  unfold mlp dense
  rw [val_main_v23_apply, val_main_v20_apply, val_main_v22_apply, val_main_v21_apply, Ideal.addf_def]
  have hb : idx_main_v21 (idx_main_v22 (ix2 p q)) = ix1 q :=
    funext fun a => Fin.ext (by match a with | ⟨0, _⟩ => rfl)
  rw [hb]
  refine congrArg (· + x9 (ix1 q)) (Finset.sum_congr rfl fun k _ => ?_)
  have hl : lidx_main_v20 (ix2 p q) k = ix2 p k :=
    funext fun a => Fin.ext (by match a with | ⟨0, _⟩ => rfl | ⟨1, _⟩ => rfl)
  have hr : ridx_main_v20 (ix2 p q) k = ix2 k q :=
    funext fun a => Fin.ext (by match a with | ⟨0, _⟩ => rfl | ⟨1, _⟩ => rfl)
  have hβ : idx_main_v16 (idx_main_v17 (ix2 p k)) = ix1 k :=
    funext fun a => Fin.ext (by match a with | ⟨0, _⟩ => rfl)
  rw [hl, hr, val_main_v19_apply, val_main_v18_apply, val_main_v15_apply, val_main_v17_apply, val_main_v16_apply,
    val_main_call0_v0_apply, val_main_call0_cst_apply, Ideal.maximumf_def, Ideal.addf_def, Ideal.ofBits_def,
    Ideal.ofBits_zero_f32, hβ]
  refine congrArg (fun s => max (s + x7 (ix1 k)) 0 * x8 (ix2 k q)) (Finset.sum_congr rfl fun l _ => ?_)
  have hl' : lidx_main_v15 (ix2 p k) l = ix2 p l :=
    funext fun a => Fin.ext (by match a with | ⟨0, _⟩ => rfl | ⟨1, _⟩ => rfl)
  have hr' : ridx_main_v15 (ix2 p k) l = ix2 l k :=
    funext fun a => Fin.ext (by match a with | ⟨0, _⟩ => rfl | ⟨1, _⟩ => rfl)
  rw [hl', hr']

/-- The output: the perceptron of the new hidden state. -/
theorem ref_outLayers : val_main_v75 (F := Ideal) x0 x1 x2 x3 x4 x5 x6 x7 x8 x9 x10 x11 x12 x13 x14 x15 x16 x17
    = mlp (N := 50000) (a := 64) (b := 128) (c := 32) (val_main_v66 (F := Ideal) x0 x1 x2 x3 x4 x5 x6 x7 x8 x9 x10 x11 x12 x13) x14 x15 x16 x17 := by
  -- entry (p, q): the same reading as for the messages, with 64 inputs, 128 hidden units and 32 outputs
  funext i
  obtain ⟨p, q, rfl⟩ : ∃ (p : Fin 50000) (q : Fin 32), i = ix2 p q := ⟨i 0, i 1, eq_ix2 i⟩
  unfold mlp dense
  rw [val_main_v75_apply, val_main_v72_apply, val_main_v74_apply, val_main_v73_apply, Ideal.addf_def]
  have hb : idx_main_v73 (idx_main_v74 (ix2 p q)) = ix1 q :=
    funext fun a => Fin.ext (by match a with | ⟨0, _⟩ => rfl)
  rw [hb]
  refine congrArg (· + x17 (ix1 q)) (Finset.sum_congr rfl fun k _ => ?_)
  have hl : lidx_main_v72 (ix2 p q) k = ix2 p k :=
    funext fun a => Fin.ext (by match a with | ⟨0, _⟩ => rfl | ⟨1, _⟩ => rfl)
  have hr : ridx_main_v72 (ix2 p q) k = ix2 k q :=
    funext fun a => Fin.ext (by match a with | ⟨0, _⟩ => rfl | ⟨1, _⟩ => rfl)
  have hβ : idx_main_v68 (idx_main_v69 (ix2 p k)) = ix1 k :=
    funext fun a => Fin.ext (by match a with | ⟨0, _⟩ => rfl)
  rw [hl, hr, val_main_v71_apply, val_main_v70_apply, val_main_v67_apply, val_main_v69_apply, val_main_v68_apply,
    val_main_call1_v0_apply, val_main_call1_cst_apply, Ideal.maximumf_def, Ideal.addf_def, Ideal.ofBits_def,
    Ideal.ofBits_zero_f32, hβ]
  refine congrArg (fun s => max (s + x15 (ix1 k)) 0 * x16 (ix2 k q)) (Finset.sum_congr rfl fun l _ => ?_)
  have hl' : lidx_main_v67 (ix2 p k) l = ix2 p l :=
    funext fun a => Fin.ext (by match a with | ⟨0, _⟩ => rfl | ⟨1, _⟩ => rfl)
  have hr' : ridx_main_v67 (ix2 p k) l = ix2 l k :=
    funext fun a => Fin.ext (by match a with | ⟨0, _⟩ => rfl | ⟨1, _⟩ => rfl)
  rw [hl', hr']

end Cert.ReferenceIdeal.Hand

end
-- ==== Proof.RefLstm.lean ====
/-
  The reference program's LSTM cell step, at the exact instance, as the specification's functions. The host spells the
  logistic function 1 / (1 + exp (−x)), which is the logistic function of the extended reals; it adds the input-weight
  bias before the hidden-weight product where the specification adds it after, and addition of extended reals is
  commutative and associative; its four gate blocks are slices of 64 columns of the pre-activation array.
-/
import proofs.«139653_j38843684225221_1_alg».proof.Proof.RefStages
import proofs.«139653_j38843684225221_1_alg».proof.Proof.Spec
import proofs.«139653_j38843684225221_1_alg».proof.Proof.LibRows
import Idealize.ShloMosaic.Lib.Pipeline.Value
import Idealize.ShloMosaic.Lib.ValueLayout

noncomputable section

open scoped BigOperators
open Idealize.ShloMosaic Idealize.ShloMosaic.TcCoe Idealize.ShloMosaic.ValueIdx Idealize.SL.Sem

namespace Cert.ReferenceIdeal.Hand

open Cert.ReferenceIdeal Cert.ReferenceIdeal.Read Cert.Spec

variable (x0 x1 x2 x3 : (⟨S50000x64, .f32⟩ : BufTy).Contents (Elt Ideal)) (x4 x5 : (⟨S1600000, .i32⟩ : BufTy).Contents (Elt Ideal))
  (x6 : (⟨S128x128, .f32⟩ : BufTy).Contents (Elt Ideal)) (x7 : (⟨S128, .f32⟩ : BufTy).Contents (Elt Ideal)) (x8 : (⟨S128x64, .f32⟩ : BufTy).Contents (Elt Ideal)) (x9 : (⟨S64, .f32⟩ : BufTy).Contents (Elt Ideal))
  (x10 : (⟨S256x128, .f32⟩ : BufTy).Contents (Elt Ideal)) (x11 : (⟨S256x64, .f32⟩ : BufTy).Contents (Elt Ideal)) (x12 x13 : (⟨S256, .f32⟩ : BufTy).Contents (Elt Ideal))
  (x14 : (⟨S64x128, .f32⟩ : BufTy).Contents (Elt Ideal)) (x15 : (⟨S128, .f32⟩ : BufTy).Contents (Elt Ideal)) (x16 : (⟨S128x32, .f32⟩ : BufTy).Contents (Elt Ideal)) (x17 : (⟨S32, .f32⟩ : BufTy).Contents (Elt Ideal))

/-- The node input beside the summed messages. -/
abbrev refNodeIn : Mat 50000 128 := sideBySide (N := 50000) x0 (val_main_v26 (F := Ideal) x1 x4 x5 x6 x7 x8 x9)

/-- The concatenation along the columns, at (r, l): the first array for l < 64, the second at column l − 64 otherwise. -/
private theorem concat_sideBySide (r : Fin 50000) (l : Fin 128) :
    val_main_v27 (F := Ideal) x0 x1 x4 x5 x6 x7 x8 x9 (ix2 r l) = refNodeIn x0 x1 x4 x5 x6 x7 x8 x9 (ix2 r l) := by
  unfold val_main_v27 refNodeIn
  generalize val_main_v26 (F := Ideal) x1 x4 x5 x6 x7 x8 x9 = y
  unfold sideBySide
  by_cases h : l.val < 64
  · rw [dif_pos (show ((ix2 r l : (⟨2, ![50000, 128]⟩ : Shape).Idx) 1).val < 64 from h)]
    exact concatenate_pair_apply_left 1 x0 y _ (ix2 r l) rfl
      (ix2 r ⟨l.val, h⟩) (fun b => match b with
        | ⟨0, _⟩ => rfl
        | ⟨1, _⟩ => rfl)
  · rw [dif_neg (show ¬ ((ix2 r l : (⟨2, ![50000, 128]⟩ : Shape).Idx) 1).val < 64 from h)]
    exact concatenate_pair_apply_right 1 x0 y _ (ix2 r l) rfl rfl
      (ix2 r ⟨l.val - 64, by have := l.isLt; omega⟩) (fun b hb => match b, hb with
        | ⟨0, _⟩, _ => rfl
        | ⟨1, _⟩, hb => absurd rfl hb)
      (by show l.val - 64 + 64 = l.val; omega)

/-- Where the first product reads its operands. -/
private theorem inputProduct_left_at (r : Fin 50000) (q : Fin 256) (k : Fin 128) : lidx_main_v29 (ix2 r q) k = ix2 r k :=
  funext fun a => Fin.ext (by match a with | ⟨0, _⟩ => rfl | ⟨1, _⟩ => rfl)
private theorem inputProduct_right_at (r : Fin 50000) (q : Fin 256) (k : Fin 128) : ridx_main_v29 (ix2 r q) k = ix2 k q :=
  funext fun a => Fin.ext (by match a with | ⟨0, _⟩ => rfl | ⟨1, _⟩ => rfl)
/-- Where the second product reads its operands. -/
private theorem hiddenProduct_left_at (r : Fin 50000) (q : Fin 256) (k : Fin 64) : lidx_main_v34 (ix2 r q) k = ix2 r k :=
  funext fun a => Fin.ext (by match a with | ⟨0, _⟩ => rfl | ⟨1, _⟩ => rfl)
private theorem hiddenProduct_right_at (r : Fin 50000) (q : Fin 256) (k : Fin 64) : ridx_main_v34 (ix2 r q) k = ix2 k q :=
  funext fun a => Fin.ext (by match a with | ⟨0, _⟩ => rfl | ⟨1, _⟩ => rfl)
/-- Where a broadcast bias row is read: at the column. -/
private theorem inputBias_at (r : Fin 50000) (q : Fin 256) : idx_main_v30 (idx_main_v31 (ix2 r q)) = ix1 q :=
  funext fun a => Fin.ext (by match a with | ⟨0, _⟩ => rfl)
private theorem hiddenBias_at (r : Fin 50000) (q : Fin 256) : idx_main_v36 (idx_main_v37 (ix2 r q)) = ix1 q :=
  funext fun a => Fin.ext (by match a with | ⟨0, _⟩ => rfl)

/-- The gates' pre-activation array (the value the four slices are cut from) at (r, q). -/
theorem ref_gates (r : Fin 50000) (q : Fin 256) : val_main_v38 (F := Ideal) x0 x1 x2 x4 x5 x6 x7 x8 x9 x10 x11 x12 x13 (ix2 r q)
    = gates (N := 50000) (refNodeIn x0 x1 x4 x5 x6 x7 x8 x9) x2 (val_main_v28 (F := Ideal) x10) (val_main_v33 (F := Ideal) x11) x12 x13 r q := by
  rw [val_main_v38_apply, val_main_v35_apply, val_main_v32_apply, val_main_v37_apply, val_main_v36_apply,
    val_main_v31_apply, val_main_v30_apply, val_main_v29_apply, val_main_v34_apply, inputBias_at, hiddenBias_at]
  simp only [inputProduct_left_at, inputProduct_right_at, hiddenProduct_left_at, hiddenProduct_right_at, concat_sideBySide, Ideal.addf_def]
  unfold gates
  exact congrArg (· + x13 (ix1 q)) (add_right_comm _ _ _)

/-- The single-precision pattern of the literal one is the number one. -/
private theorem one_pattern : Ideal.ofBits .f32 0x3F800000#32 = 1 := by
  simp [Ideal.ofBits, Ideal.ieee, -EReal.coe_mul]; norm_num

/-- The host's spelling 1 / (1 + exp (−x)), its ones written as bit patterns, is the logistic function. -/
private theorem logistic_spelled (x : EReal) :
    Ideal.div (Ideal.ofBits .f32 0x3F800000#32) (Ideal.ofBits .f32 0x3F800000#32 + Ideal.exp (-x)) = Ideal.logistic x := by
  rw [one_pattern]; rfl

/-- The four slices of 64 columns read the gate blocks' columns. -/
private theorem inputGate_columns (r : Fin 50000) (j : Fin 64) : idx_main_v39 (ix2 r j) = ix2 r (gcol 0 j) :=
  funext fun a => Fin.ext (by
    match a with
    | ⟨0, _⟩ => rfl
    | ⟨1, _⟩ => show j.val = 64 * 0 + j.val; omega)
private theorem forgetGate_columns (r : Fin 50000) (j : Fin 64) : idx_main_v40 (ix2 r j) = ix2 r (gcol 1 j) :=
  funext fun a => Fin.ext (by
    match a with
    | ⟨0, _⟩ => rfl
    | ⟨1, _⟩ => show 64 + j.val = 64 * 1 + j.val; omega)
private theorem candidate_columns (r : Fin 50000) (j : Fin 64) : idx_main_v41 (ix2 r j) = ix2 r (gcol 2 j) :=
  funext fun a => Fin.ext (by
    match a with
    | ⟨0, _⟩ => rfl
    | ⟨1, _⟩ => show 128 + j.val = 64 * 2 + j.val; omega)
private theorem outputGate_columns (r : Fin 50000) (j : Fin 64) : idx_main_v42 (ix2 r j) = ix2 r (gcol 3 j) :=
  funext fun a => Fin.ext (by
    match a with
    | ⟨0, _⟩ => rfl
    | ⟨1, _⟩ => show 192 + j.val = 64 * 3 + j.val; omega)

/-- The new cell state (result 2). -/
theorem ref_cell : val_main_v58 (F := Ideal) x0 x1 x2 x3 x4 x5 x6 x7 x8 x9 x10 x11 x12 x13
    = cellNew (N := 50000) (refNodeIn x0 x1 x4 x5 x6 x7 x8 x9) x2 x3 (val_main_v28 (F := Ideal) x10) (val_main_v33 (F := Ideal) x11) x12 x13 := by
  funext i
  obtain ⟨r, j, rfl⟩ : ∃ (r : Fin 50000) (j : Fin 64), i = ix2 r j := ⟨i 0, i 1, eq_ix2 i⟩
  unfold cellNew
  rw [val_main_v58_apply, val_main_v49_apply, val_main_v48_apply, val_main_v47_apply, val_main_cst_4_apply,
    val_main_v46_apply, val_main_v45_apply, val_main_cst_3_apply, val_main_v44_apply, val_main_v43_apply,
    val_main_v40_apply, forgetGate_columns, ref_gates,
    val_main_v57_apply, val_main_v55_apply, val_main_v54_apply, val_main_cst_6_apply, val_main_v53_apply,
    val_main_v52_apply, val_main_cst_5_apply, val_main_v51_apply, val_main_v50_apply, val_main_v39_apply,
    inputGate_columns, ref_gates, val_main_v56_apply, val_main_v41_apply, candidate_columns, ref_gates]
  simp only [Ideal.ofBits_def, Ideal.addf_def, Ideal.mulf_def, Ideal.hostDivf_def, Ideal.hostUnary_exp_def,
    Ideal.hostNegf_def, Ideal.negf_def, Ideal.hostUnary_tanh_def, logistic_spelled]

/-- The new hidden state (result 1). -/
theorem ref_hidden : val_main_v66 (F := Ideal) x0 x1 x2 x3 x4 x5 x6 x7 x8 x9 x10 x11 x12 x13
    = hiddenNew (N := 50000) (refNodeIn x0 x1 x4 x5 x6 x7 x8 x9) x2 x3 (val_main_v28 (F := Ideal) x10) (val_main_v33 (F := Ideal) x11) x12 x13 := by
  funext i
  obtain ⟨r, j, rfl⟩ : ∃ (r : Fin 50000) (j : Fin 64), i = ix2 r j := ⟨i 0, i 1, eq_ix2 i⟩
  unfold hiddenNew
  rw [val_main_v66_apply, val_main_v64_apply, val_main_v63_apply, val_main_cst_8_apply, val_main_v62_apply,
    val_main_v61_apply, val_main_cst_7_apply, val_main_v60_apply, val_main_v59_apply, val_main_v42_apply,
    outputGate_columns, ref_gates, val_main_v65_apply, ref_cell]
  simp only [Ideal.ofBits_def, Ideal.addf_def, Ideal.mulf_def, Ideal.hostDivf_def, Ideal.hostUnary_exp_def,
    Ideal.hostNegf_def, Ideal.negf_def, Ideal.hostUnary_tanh_def, logistic_spelled]

end Cert.ReferenceIdeal.Hand

end
-- ==== Proof.RefValue.lean ====
/-
  The reference program's three results, at the exact instance, as the specification's functions of its arguments (the
  perceptrons and the LSTM step are read in their own modules; here the output is put together).
-/
import proofs.«139653_j38843684225221_1_alg».proof.Proof.RefStages
import proofs.«139653_j38843684225221_1_alg».proof.Proof.Spec
import proofs.«139653_j38843684225221_1_alg».proof.Proof.LibRows
import proofs.«139653_j38843684225221_1_alg».proof.Proof.RefMlp
import proofs.«139653_j38843684225221_1_alg».proof.Proof.RefLstm
import Idealize.ShloMosaic.Lib.Pipeline.Value
import Idealize.ShloMosaic.Lib.ValueLayout

noncomputable section

open scoped BigOperators
open Idealize.ShloMosaic Idealize.ShloMosaic.TcCoe Idealize.ShloMosaic.ValueIdx Idealize.SL.Sem

namespace Cert.ReferenceIdeal.Hand

open Cert.ReferenceIdeal Cert.ReferenceIdeal.Read Cert.Spec

variable (x0 x1 x2 x3 : (⟨S50000x64, .f32⟩ : BufTy).Contents (Elt Ideal)) (x4 x5 : (⟨S1600000, .i32⟩ : BufTy).Contents (Elt Ideal))
  (x6 : (⟨S128x128, .f32⟩ : BufTy).Contents (Elt Ideal)) (x7 : (⟨S128, .f32⟩ : BufTy).Contents (Elt Ideal)) (x8 : (⟨S128x64, .f32⟩ : BufTy).Contents (Elt Ideal)) (x9 : (⟨S64, .f32⟩ : BufTy).Contents (Elt Ideal))
  (x10 : (⟨S256x128, .f32⟩ : BufTy).Contents (Elt Ideal)) (x11 : (⟨S256x64, .f32⟩ : BufTy).Contents (Elt Ideal)) (x12 x13 : (⟨S256, .f32⟩ : BufTy).Contents (Elt Ideal))
  (x14 : (⟨S64x128, .f32⟩ : BufTy).Contents (Elt Ideal)) (x15 : (⟨S128, .f32⟩ : BufTy).Contents (Elt Ideal)) (x16 : (⟨S128x32, .f32⟩ : BufTy).Contents (Elt Ideal)) (x17 : (⟨S32, .f32⟩ : BufTy).Contents (Elt Ideal))

/-- The output (result 0): the perceptron of the new hidden state. -/
theorem ref_out : val_main_v75 (F := Ideal) x0 x1 x2 x3 x4 x5 x6 x7 x8 x9 x10 x11 x12 x13 x14 x15 x16 x17
    = mlp (N := 50000) (a := 64) (b := 128) (c := 32)
        (hiddenNew (N := 50000) (refNodeIn x0 x1 x4 x5 x6 x7 x8 x9) x2 x3 (val_main_v28 (F := Ideal) x10) (val_main_v33 (F := Ideal) x11) x12 x13)
        x14 x15 x16 x17 := by
  rw [ref_outLayers, ref_hidden]

end Cert.ReferenceIdeal.Hand

end
-- ==== Proof.Bridge.lean ====
/-
  The two programs' results are the same functions of the arguments.

  Both programs gather the end-point states and scatter-add the messages with the same host operations, so once the
  messages agree (both are the specification's perceptron of the same gathered array) the summed messages agree, and
  then the LSTM step and the output perceptron are the specification's functions of the same arrays on both sides.
-/
import proofs.«139653_j38843684225221_1_alg».proof.Proof.KValue
import proofs.«139653_j38843684225221_1_alg».proof.Proof.RefValue

noncomputable section

open scoped BigOperators
open Idealize.ShloMosaic Idealize.ShloMosaic.TcCoe Idealize.ShloMosaic.ValueIdx Idealize.SL.Sem

namespace Cert.Bridge

open Cert.Spec Cert.ReferenceIdeal.Read Cert.ReferenceIdeal.Hand
open Cert.KernelIdeal.Hand (edgeIn segSum msgsOf nodeInOf)

variable (x0 x1 x2 x3 : (⟨Cert.ReferenceIdeal.S50000x64, .f32⟩ : BufTy).Contents (Elt Ideal)) (x4 x5 : (⟨Cert.ReferenceIdeal.S1600000, .i32⟩ : BufTy).Contents (Elt Ideal))
  (x6 : (⟨Cert.ReferenceIdeal.S128x128, .f32⟩ : BufTy).Contents (Elt Ideal)) (x7 : (⟨Cert.ReferenceIdeal.S128, .f32⟩ : BufTy).Contents (Elt Ideal)) (x8 : (⟨Cert.ReferenceIdeal.S128x64, .f32⟩ : BufTy).Contents (Elt Ideal)) (x9 : (⟨Cert.ReferenceIdeal.S64, .f32⟩ : BufTy).Contents (Elt Ideal))
  (x10 : (⟨Cert.ReferenceIdeal.S256x128, .f32⟩ : BufTy).Contents (Elt Ideal)) (x11 : (⟨Cert.ReferenceIdeal.S256x64, .f32⟩ : BufTy).Contents (Elt Ideal)) (x12 x13 : (⟨Cert.ReferenceIdeal.S256, .f32⟩ : BufTy).Contents (Elt Ideal))
  (x14 : (⟨Cert.ReferenceIdeal.S64x128, .f32⟩ : BufTy).Contents (Elt Ideal)) (x15 : (⟨Cert.ReferenceIdeal.S128, .f32⟩ : BufTy).Contents (Elt Ideal)) (x16 : (⟨Cert.ReferenceIdeal.S128x32, .f32⟩ : BufTy).Contents (Elt Ideal)) (x17 : (⟨Cert.ReferenceIdeal.S32, .f32⟩ : BufTy).Contents (Elt Ideal))

/-- The reference gathers and concatenates the end-point states with the kernel program's host operations. -/
theorem gathered_eq : val_main_v14 (F := Ideal) x1 x4 x5 = edgeIn x1 x4 x5 := rfl

/-- The reference's summed messages are the kernel program's: the same scatter-add of the same messages. -/
theorem summed_eq : val_main_v26 (F := Ideal) x1 x4 x5 x6 x7 x8 x9 = segSum x5 (msgsOf x1 x4 x5 x6 x7 x8 x9) := by
  unfold val_main_v26
  rw [ref_msgs, gathered_eq]
  rfl

/-- So the node step reads the same rows in both programs. -/
theorem nodeIn_eq : refNodeIn x0 x1 x4 x5 x6 x7 x8 x9 = nodeInOf x0 x1 x4 x5 x6 x7 x8 x9 := by
  unfold refNodeIn nodeInOf
  rw [summed_eq]

/-- The reference's new cell state is the kernel program's function of the arguments. -/
theorem cell_eq : val_main_v58 (F := Ideal) x0 x1 x2 x3 x4 x5 x6 x7 x8 x9 x10 x11 x12 x13
    = cellNew (N := 50000) (nodeInOf x0 x1 x4 x5 x6 x7 x8 x9) x2 x3
        (Cert.KernelIdeal.Hand.wihT x10)
        (Cert.KernelIdeal.Hand.whhT x11) x12 x13 := by
  rw [ref_cell, nodeIn_eq]
  rfl

/-- The reference's new hidden state is the kernel program's function of the arguments. -/
theorem hidden_eq : val_main_v66 (F := Ideal) x0 x1 x2 x3 x4 x5 x6 x7 x8 x9 x10 x11 x12 x13
    = hiddenNew (N := 50000) (nodeInOf x0 x1 x4 x5 x6 x7 x8 x9) x2 x3
        (Cert.KernelIdeal.Hand.wihT x10)
        (Cert.KernelIdeal.Hand.whhT x11) x12 x13 := by
  rw [ref_hidden, nodeIn_eq]
  rfl

/-- The reference's output is the kernel program's function of the arguments. -/
theorem out_eq : val_main_v75 (F := Ideal) x0 x1 x2 x3 x4 x5 x6 x7 x8 x9 x10 x11 x12 x13 x14 x15 x16 x17
    = mlp (N := 50000) (a := 64) (b := 128) (c := 32)
        (hiddenNew (N := 50000) (nodeInOf x0 x1 x4 x5 x6 x7 x8 x9) x2 x3
          (Cert.KernelIdeal.Hand.wihT x10)
          (Cert.KernelIdeal.Hand.whhT x11) x12 x13)
        x14 x15 x16 x17 := by
  rw [ref_out, nodeIn_eq]
  rfl

end Cert.Bridge

end
-- ==== Proof.lean ====
/-
  One message-passing step of a recurrent relational network: the tiled kernels against the plain reference, over the
  extended reals.

  Kernel program: the host gathers every edge's two end-point hidden states; a first kernel region computes each edge's
  message, a two-layer perceptron with the positive part between the layers, 16000 edges per grid point; the host sums the
  messages into their destination nodes; a second region performs the LSTM cell step on each node's input laid beside its
  summed messages and then the output perceptron of the new hidden state, 5000 nodes per grid point. The reference computes
  the same quantities on whole arrays. At the exact instance a change of float format is the identity, the accelerator's
  matrix product into a zero accumulator and the host's matrix product are the same sum of products, the kernel's logistic
  function and the host's 1 / (1 + exp (−x)) are one function, and the two programs add the gate biases in different
  orders, which addition of extended reals permits. So both programs leave, in each result array, the same function of
  the arguments (module Spec states it; KValue reads it off the kernel program, RefValue off the reference, Bridge joins
  the shared gather and scatter-add). No precondition is used beyond what the generated frames need.
-/
import proofs.«139653_j38843684225221_1_alg».proof.Defs
import proofs.«139653_j38843684225221_1_alg».proof.Proof.Gen.Kernel
import proofs.«139653_j38843684225221_1_alg».proof.Proof.Gen.Kernel.Frame
import proofs.«139653_j38843684225221_1_alg».proof.Proof.Gen.KernelIdeal
import proofs.«139653_j38843684225221_1_alg».proof.Proof.Gen.KernelIdeal.Frame
import proofs.«139653_j38843684225221_1_alg».proof.Proof.Gen.ReferenceIdeal
import proofs.«139653_j38843684225221_1_alg».proof.Proof.RefRun
import proofs.«139653_j38843684225221_1_alg».proof.Proof.RefTerms
import proofs.«139653_j38843684225221_1_alg».proof.Proof.Gen.Pre_finite_inputs
import proofs.«139653_j38843684225221_1_alg».proof.Proof.KValue
import proofs.«139653_j38843684225221_1_alg».proof.Proof.RefValue
import proofs.«139653_j38843684225221_1_alg».proof.Proof.Bridge
import Idealize.ShloMosaic.Adequacy
import Idealize.ShloMosaic.Init

noncomputable section

namespace Cert.Proof

open Idealize.ShloMosaic Idealize.SL.Sem

/-- The reference's frame: its run, with the results dropped. -/
theorem frame_ref : Cert.frame_ReferenceIdeal := fun m ρ _ =>
  (θ_run Cert.ReferenceIdeal.defs _ _).mono (fun _ h c => (h c).2.2.2) (Cert.ReferenceIdeal.Value.run (F := Ideal) m ρ)

set_option maxHeartbeats 1000000 in
/-- Both idealized programs end with each result array at the specification's function of the (agreeing) arguments. -/
theorem algebraic : Cert.algebraic_KernelIdeal_ReferenceIdeal := by
  intro m ρ m' ρ' _ hagree
  refine ⟨fun c => Cert.KernelIdeal.Hand.outK m c, fun c => Cert.KernelIdeal.Hand.hiddenK m c,
    fun c => Cert.KernelIdeal.Hand.cellK m c, Cert.KernelIdeal.Hand.run m ρ, ?_⟩
  refine (θ_run Cert.ReferenceIdeal.defs _ _).mono (fun r h c => ?_) (Cert.ReferenceIdeal.Value.run (F := Ideal) m' ρ')
  obtain ⟨h0, h1, h2, hargs⟩ := h c
  obtain ⟨e0, e1, e2, e3, e4, e5, e6, e7, e8, e9, e10, e11, e12, e13, e14, e15, e16, e17⟩ := hagree c
  refine ⟨h0.trans ?_, h1.trans ?_, h2.trans ?_, hargs⟩
  · have key : Cert.ReferenceIdeal.Read.val_main_v75 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17))
        = Cert.ReferenceIdeal.Read.val_main_v75 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) := by
      rw [e0, e1, e2, e3, e4, e5, e6, e7, e8, e9, e10, e11, e12, e13, e14, e15, e16, e17]
    exact (Cert.ReferenceIdeal.Read.val_main_v75_eq m' c).trans (key.trans (Cert.Bridge.out_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))))
  · have key : Cert.ReferenceIdeal.Read.val_main_v66 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13))
        = Cert.ReferenceIdeal.Read.val_main_v66 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) := by
      rw [e0, e1, e2, e3, e4, e5, e6, e7, e8, e9, e10, e11, e12, e13]
    exact (Cert.ReferenceIdeal.Read.val_main_v66_eq m' c).trans (key.trans (Cert.Bridge.hidden_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))))
  · have key : Cert.ReferenceIdeal.Read.val_main_v58 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13))
        = Cert.ReferenceIdeal.Read.val_main_v58 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) := by
      rw [e0, e1, e2, e3, e4, e5, e6, e7, e8, e9, e10, e11, e12, e13]
    exact (Cert.ReferenceIdeal.Read.val_main_v58_eq m' c).trans (key.trans (Cert.Bridge.cell_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))))

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ref,
  trivial,
  algebraic⟩

end Cert.Proof

end
